-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1024x4096 : Shape := ⟨2, ![1024, 4096]⟩
abbrev S4096x1024 : Shape := ⟨2, ![4096, 1024]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S1024x4096 .f32) (main_arg2 : FVec F S4096x1024 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S1024x4096 : Shape := ⟨2, ![1024, 4096]⟩
abbrev S4096x1024 : Shape := ⟨2, ![4096, 1024]⟩
abbrev S4096 : Shape := ⟨1, ![4096]⟩
abbrev S1x4096 : Shape := ⟨2, ![1, 4096]⟩
abbrev S8192x1024 : Shape := ⟨2, ![8192, 1024]⟩
abbrev S512x1024 : Shape := ⟨2, ![512, 1024]⟩
abbrev S1024x1024 : Shape := ⟨2, ![1024, 1024]⟩
abbrev S_ : Shape := ⟨0, ![]⟩
abbrev S1x1 : Shape := ⟨2, ![1, 1]⟩
abbrev S1x1024 : Shape := ⟨2, ![1, 1024]⟩

abbrev nBuf : Space → Nat
  | .hbm => 19
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S4096x1024, .f32⟩
  | .hbm, ⟨3, _⟩ => ⟨S4096, .f32⟩
  | .hbm, ⟨4, _⟩ => ⟨S4096x1024, .f32⟩
  | .hbm, ⟨5, _⟩ => ⟨S1024x4096, .f32⟩
  | .hbm, ⟨6, _⟩ => ⟨S1x4096, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x1, .f32⟩
  | .hbm, ⟨18, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1024x1024, .f32⟩
  | .local _ .vmem, ⟨8, _⟩ => ⟨S1024x1024, .f32⟩
  | .local _ .vmem, ⟨9, _⟩ => ⟨S1x1, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  transposes_S1024x4096_S4096x1024_1_0 : S1024x4096.Transposes [1, 0] S4096x1024
  transposes_S4096x1024_S1024x4096_1_0 : S4096x1024.Transposes [1, 0] S1024x4096
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reducesTo_S8192x1024_S_d0_1 : S8192x1024.ReducesTo [0, 1] S_
  h_S_ : 0 < S_.numel
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S512x1024_S1024x1024_S512x1024_1_0_0_1_n_n_wf : DotDims.WF S512x1024 S1024x1024 S512x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x4096.size a
  hwx1_2 : ∀ i : grid1.Coords, EltTy.bits .f32 = 32 ∨ (Rect.block (s := S1024x4096) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x4096.size a
  hwx1_4 : ∀ i : grid1.Coords, EltTy.bits .f32 = 32 ∨ (Rect.block (s := S8192x4096) S1024x1024.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S1024x4096 : Shape := ⟨2, ![1024, 4096]⟩
abbrev S4096x1024 : Shape := ⟨2, ![4096, 1024]⟩
abbrev S4096 : Shape := ⟨1, ![4096]⟩
abbrev S8192x1024 : Shape := ⟨2, ![8192, 1024]⟩
abbrev S_ : Shape := ⟨0, ![]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S4096x1024, .f32⟩
  | .hbm, ⟨3, _⟩ => ⟨S4096, .f32⟩
  | .hbm, ⟨4, _⟩ => ⟨S4096x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .i32⟩
  | .hbm, ⟨19, _⟩ => ⟨S_, .i32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1024x4096, .f32⟩
  | .hbm, ⟨29, _⟩ => ⟨S8192x4096, .f32⟩
  | .hbm, ⟨30, _⟩ => ⟨S1x4096, .f32⟩
  | .hbm, ⟨31, _⟩ => ⟨S8192x4096, .f32⟩
  | .hbm, ⟨32, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_c_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]

class Facts₀ : Prop where
  transposes_S1024x4096_S4096x1024_1_0 : S1024x4096.Transposes [1, 0] S4096x1024
  reducesTo_S8192x1024_S_d0_1 : S8192x1024.ReducesTo [0, 1] S_
  h_S_ : 0 < S_.numel
  bcast_S_S8192x1024 : S_.BroadcastsInDim S8192x1024 (![] : Fin 0 → Fin S8192x1024.rank)
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x1024_S8192x1024_1_0_0_1_n_n_wf : DotDims.WF S8192x4096 S4096x1024 S8192x1024 [1] [0] [0] [1] [] []
  dot_S8192x1024_S1024x4096_S8192x4096_1_0_0_1_n_n_wf : DotDims.WF S8192x1024 S1024x4096 S8192x4096 [1] [0] [0] [1] [] []

variable [Facts₀]

def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.K.Reg0.lean ====
/-
  The first pallas_call (the projection x · bᵀ accumulated over four blocks of the contracted axis) as a pipeline
  region, at a PARAMETER V: the buffers' contents when the region is entered.
  The grid is 16 × 4, the second coordinate k walking the contracted axis. The body keeps an accumulator in a scratch
  buffer across the four points of a row block: at k = 0 it resets it, at every point it adds the product of its two
  input blocks to it and copies it into the output block. So after the point at position n the scratch and the output
  buffer both hold the partial sum up to n (outsAt0, by recursion on the position: a reset at the positions ≡ 0 mod 4,
  otherwise one more block product over what the position before left). The region's invariant between points is the
  scratch at that partial sum, beside the other scoped buffers and the generator register at anything.
-/
import proofs.«178191_j23596550324368_1_alg».proof.Proof.Gen.Kernel.Launch
import proofs.«178191_j23596550324368_1_alg».proof.Proof.Gen.Kernel.Skeleton
import proofs.«178191_j23596550324368_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one branch: taken where the grid's second coordinate is zero, -/
abbrev cond0 (i : grid0.Coords) : Prop := (Scalar.cmpi .ne (Scalar.extui (Scalar.cmpi .eq (BitVec.ofNat 32 (i 1).val) 0#32)) 0#32) = 1#1
/-- that is at the positions ≡ 0 (mod 4). -/
theorem hcond0 : ∀ t : Fin cfg0.N, cond0 (grid0.coords t) ↔ t.val % 4 = 0 :=
  (by decide +kernel : ∀ t : Fin grid0.N, cond0 (grid0.coords t) ↔ t.val % 4 = 0)

/-- One staging buffer of the output window, through which its contents are stated. -/
abbrev VO0 : View sig .tc .vmem S512x1024 .f32 := (Memref.whole cc0_stg2_0 : Memref sig .tc .vmem S512x1024 .f32).view
/-- Each window's current staging memref at point t, as the pipeline passes it. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S512x1024 .f32 := Memref.whole cc0_scratch0
abbrev VS0 : View sig .tc .vmem S512x1024 .f32 := scM0.view

/-- The scoped buffers that are neither a staging buffer of this region nor its accumulator, each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's entry invariant, with the accumulator split off as a memref owned at some contents. -/
theorem PhiA0_eq (c : Dev nD) :
    (Pipeline.ΦA spec0 c : sProp 𝕄)
      = iprop(iprop((∃ d, owns (c : Thread nD τ) scM0 fullShare d) ∗ Rest0 c) ∗ (∃ r, prngReg c r)) := by
  unfold Pipeline.ΦA Rest0; rw [scopedRest0_eq]; simp only [scM0, owns_whole]; try rfl

set_option maxHeartbeats 1000000 in
/-- The body where the branch is taken (k = 0): the pieces it leaves in the output buffer and in the accumulator, with
    the proof that on whole memrefs — the inputs at x0, x1, the output and the accumulator at anything — it runs to the
    continuation holding the inputs as they were and those pieces written. -/
noncomputable def kernelRun0_A (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : cond0 i)
    (x0 : Vec F S512x1024 .f32) (x1 : Vec F S1024x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__mm1_kernel i arg2 harg2 arg3 harg3 arg4 harg4 arg5 harg5) K } := by
  refine ⟨?_, ?_, fun E K => ?run⟩
  case run =>
    simp only [cc0__mm1_kernel_eq_skeleton]; unfold cc0__mm1_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 1000000 in
/-- The body where the branch is not taken (k ≠ 0): the same, the accumulator entering at the contents xs0 the point
    before left. -/
noncomputable def kernelRun0_B (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : ¬cond0 i)
    (x0 : Vec F S512x1024 .f32) (x1 : Vec F S1024x1024 .f32) (xs0 : Vec F S512x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__mm1_kernel i arg2 harg2 arg3 harg3 arg4 harg4 arg5 harg5) K } := by
  refine ⟨?_, ?_, fun E K => ?run⟩
  case run =>
    simp only [cc0__mm1_kernel_eq_skeleton]; unfold cc0__mm1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Reg0Dat.lean ====
/-
  The first pallas_call's proof data: what its output block and its accumulator hold after each grid point, the
  invariant carrying the accumulator from point to point, and the body obligation at every point.
-/
import proofs.«178191_j23596550324368_1_alg».proof.Proof.K.Reg0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Where the branch is taken: the pieces stored into the output block cover it; what they leave. -/
theorem cover0_A (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : cond0 i)
    (x0 : Vec F S512x1024 .f32) (x1 : Vec F S1024x1024 .f32) (y : S512x1024.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S512x1024.size (by sl_kernel_rfl) y
def out0_A (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : cond0 i)
    (x0 : Vec F S512x1024 .f32) (x1 : Vec F S1024x1024 .f32) : Vec F S512x1024 .f32 :=
  VO0.read (Elt F) (VO0.writes (Elt F) VO0.junk (kernelRun0_A c i arg2 harg2 arg3 harg3 arg4 harg4 arg5 harg5 hc0 x0 x1).1)
/-- The same for the accumulator. -/
theorem scover0_A (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : cond0 i)
    (x0 : Vec F S512x1024 .f32) (x1 : Vec F S1024x1024 .f32) (y : S512x1024.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S512x1024.size (by sl_kernel_rfl) y
def sout0_A (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : cond0 i)
    (x0 : Vec F S512x1024 .f32) (x1 : Vec F S1024x1024 .f32) : Vec F S512x1024 .f32 :=
  VS0.read (Elt F) (VS0.writes (Elt F) VS0.junk (kernelRun0_A c i arg2 harg2 arg3 harg3 arg4 harg4 arg5 harg5 hc0 x0 x1).2.1)

/-- Where the branch is not taken, over the accumulator's contents xs0 at entry. -/
theorem cover0_B (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : ¬cond0 i)
    (x0 : Vec F S512x1024 .f32) (x1 : Vec F S1024x1024 .f32) (xs0 : Vec F S512x1024 .f32) (y : S512x1024.Idx) :
    ∃ pc ∈ (kernelRun0_B c i arg2 harg2 arg3 harg3 arg4 harg4 arg5 harg5 hc0 x0 x1 xs0).1, y ∈ pc.1.set :=
  View.cover_of_tiledL (kernelRun0_B c i arg2 harg2 arg3 harg3 arg4 harg4 arg5 harg5 hc0 x0 x1 xs0).1 S512x1024.size (by sl_kernel_rfl) y
def out0_B (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : ¬cond0 i)
    (x0 : Vec F S512x1024 .f32) (x1 : Vec F S1024x1024 .f32) (xs0 : Vec F S512x1024 .f32) : Vec F S512x1024 .f32 :=
  VO0.read (Elt F) (VO0.writes (Elt F) VO0.junk (kernelRun0_B c i arg2 harg2 arg3 harg3 arg4 harg4 arg5 harg5 hc0 x0 x1 xs0).1)
theorem scover0_B (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : ¬cond0 i)
    (x0 : Vec F S512x1024 .f32) (x1 : Vec F S1024x1024 .f32) (xs0 : Vec F S512x1024 .f32) (y : S512x1024.Idx) :
    ∃ pc ∈ (kernelRun0_B c i arg2 harg2 arg3 harg3 arg4 harg4 arg5 harg5 hc0 x0 x1 xs0).2.1, y ∈ pc.1.set :=
  View.cover_of_tiledL (kernelRun0_B c i arg2 harg2 arg3 harg3 arg4 harg4 arg5 harg5 hc0 x0 x1 xs0).2.1 S512x1024.size (by sl_kernel_rfl) y
def sout0_B (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : ¬cond0 i)
    (x0 : Vec F S512x1024 .f32) (x1 : Vec F S1024x1024 .f32) (xs0 : Vec F S512x1024 .f32) : Vec F S512x1024 .f32 :=
  VS0.read (Elt F) (VS0.writes (Elt F) VS0.junk (kernelRun0_B c i arg2 harg2 arg3 harg3 arg4 harg4 arg5 harg5 hc0 x0 x1 xs0).2.1)

/-- THE ACCUMULATION. What the output block's staging buffer and the accumulator hold after the body at position n:
    at a position ≡ 0 (mod 4) what the reset-and-add leaves, otherwise what one more add leaves over the accumulator of
    the position before. -/
def outsAt0 (c : Dev nD) : (n : ℕ) → n < cfg0.N → Vec F S512x1024 .f32 × Vec F S512x1024 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩),
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩))
  | n + 1, hn =>
    if h0 : (n + 1) % 4 = 0 then
      (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩),
        sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩))
    else
      (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2,
        sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2)

/-- outsAt0 at a position where the accumulator is reset. -/
theorem outsAt0_A (c : Dev nD) (t : Fin cfg0.N) (h0 : t.val % 4 = 0) :
    outsAt0 V c t.val t.isLt = (out0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t),
      sout0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t)) := by
  obtain ⟨n, hn⟩ := t
  cases n with
  | zero => exact rfl
  | succ n => exact (dif_pos h0).trans rfl

/-- outsAt0 at any other position: one more add over what the position before left. -/
theorem outsAt0_B (c : Dev nD) (t : Fin cfg0.N) (h0 : ¬t.val % 4 = 0) :
    outsAt0 V c t.val t.isLt = (out0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: at entry every scoped buffer at anything; afterwards the accumulator at
    what the position before left, the other scoped buffers and the generator register at anything. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ Rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ Rest0 c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ Rest0 c) ∗ (∃ r, prngReg c r)) := by
  cases n with
  | zero => exact absurd rfl hz
  | succ n => rfl

/-- The proof data of this pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at any point: the inputs' memrefs hold their blocks; the position says whether the accumulator is reset;
    the invariant hands the body the accumulator (at anything at the first point, else at what the position before left)
    and takes it back at this position's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [after0_0, after0_1, after0_2]
  have hN : t.val < 64 := lt_of_lt_of_eq t.isLt (show cfg0.N = 64 from N_0)
  by_cases h0 : t.val % 4 = 0
  · rw [outsAt0_A V c t h0]
    unfold out0_A sout0_A; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0 t).mpr h0) (iblk0 V c 0 t) (iblk0 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
    · rw [PhiS_castSucc V c t, PhiS_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0 t).mpr h0) (iblk0 V c 0 t) (iblk0 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
  · rw [outsAt0_B V c t h0]
    unfold out0_B sout0_B; (try dsimp only)
    have hz : t.val ≠ 0 := fun e => h0 (by rw [e])
    rw [PhiS_castSucc V c t, PhiS_pos V c _ _ hz]
    iintro ⟨⟨⟨HS0, HR⟩, Hg⟩, Ho, ⟨%d0, H0⟩, ⟨%d1, H1⟩, ⟨%d2, H2⟩⟩
    iapply ((kernelRun0_B c (grid0.coords t) _ _ _ _ _ _ _ _ (fun h => h0 ((hcond0 t).mp h)) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HR⟩, Hg⟩
  isplitl [HS0 HR]
  · isplitl [HS0]
    · iexists _; iexact HS0
    iexact HR
  iexact Hg

end Cert.Kernel.Hand

end
-- ==== Proof.K.Reg1.lean ====
/-
  The second pallas_call (quantise the projection block, multiply by a block of the second weight matrix, add the bias
  row) as a pipeline region, at a PARAMETER V: the buffers' contents when the region is entered.
  Every grid point loads its four input blocks whole, computes one value and stores it whole into the output block; so
  the output's staging buffer after the body is that value of the four input blocks (out1), whatever it held before,
  and the inputs' buffers are left as found. The region keeps nothing between points.
-/
import proofs.«178191_j23596550324368_1_alg».proof.Proof.Gen.Kernel.Launch
import proofs.«178191_j23596550324368_1_alg».proof.Proof.Gen.Kernel.Skeleton
import proofs.«178191_j23596550324368_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved since the fetch). One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole 1024×1024 block, the whole 1×1 block and the whole 1×1024 block as rectangles. -/
abbrev rBig : Rect S1024x1024 := Rect.unit (s := S1024x1024) ![0, 0] S1024x1024.size inb_S1024x1024_S1024x1024_0_0
abbrev rOne : Rect S1x1 := Rect.unit (s := S1x1) ![0, 0] S1x1.size inb_S1x1_S1x1_0_0
abbrev rRow : Rect S1x1024 := Rect.unit (s := S1x1024) ![0, 0] S1x1024.size inb_S1x1024_S1x1024_0_0

/-- The output block after the body, from the four input blocks (projection, scale, weight, bias): its one store. -/
def out1 (x0 : Vec F S1024x1024 .f32) (x1 : Vec F S1x1 .f32) (x2 : Vec F S1024x1024 .f32) (x3 : Vec F S1x1024 .f32) : Vec F S1024x1024 .f32 :=
  View.canon [⟨rBig, k1_pay1 (View.ld x1 rOne) (View.ld x0 rBig) (View.ld x2 rBig) (View.ld x3 rRow)⟩]

/-- The one store covers the block. -/
theorem cover1 (p0 : Vec F S1024x1024 .f32) (y : S1024x1024.Idx) :
    ∃ pc ∈ ([⟨rBig, p0⟩] : List (View.Piece (Elt F) S1024x1024 .f32)), y ∈ pc.1.set :=
  View.cover_of_tiled [⟨rBig, p0⟩] S1024x1024.size (by rfl) y

set_option maxHeartbeats 1000000 in
/-- The body on whole staging memrefs: inputs at contents x0..x3 (kept), the output at anything, ends with the output at out1. -/
theorem sound_kernel1 (c : Dev nD) (E : Set ℕ) (i : grid1.Coords)
    (arg2 : Memref sig .tc .vmem S1024x1024 .f32) (harg2 : arg2.IsWhole) (arg3 : Memref sig .tc .vmem S1x1 .f32) (harg3 : arg3.IsWhole)
    (arg4 : Memref sig .tc .vmem S1024x1024 .f32) (harg4 : arg4.IsWhole) (arg5 : Memref sig .tc .vmem S1x1024 .f32) (harg5 : arg5.IsWhole)
    (arg6 : Memref sig .tc .vmem S1024x1024 .f32) (harg6 : arg6.IsWhole)
    (x0 : Vec F S1024x1024 .f32) (x1 : Vec F S1x1 .f32) (x2 : Vec F S1024x1024 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1 x0 x1 x2 x3)) -∗ K ⟨⟩))
      ⊢ wp frame (wpE (defs₀ (F := F)) Variants.none c none) E (cc1__mm2_kernel i arg2 harg2 arg3 harg3 arg4 harg4 arg5 harg5 arg6 harg6) K := by
  simp only [cc1__mm2_kernel_eq_skeleton]; unfold cc1__mm2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-- The proof data of this pipeline on core c: arrays as found; inputs left as their blocks, the output at out1 of them;
    the invariant says nothing of the scratch and the generator register beyond holding them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program as a run: host operations (two transposes and a reshape), the first pallas_call, host operations
  (the tensor-wide scale of its result), the second pallas_call. The buffers' contents at each boundary are a fold from
  the launch memory (U0 … U4): a host stretch applies its operations, a pallas_call replaces its arrays by what its
  write-backs leave. Every weakly fair execution terminates with every unscoped buffer at U4; the argument arrays are
  read back through the fold to their launch contents.
-/
import proofs.«178191_j23596550324368_1_alg».proof.Proof.K.Reg0Dat
import proofs.«178191_j23596550324368_1_alg».proof.Proof.K.Reg1
import proofs.«178191_j23596550324368_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch, -/
abbrev U0 : Dev nD → Valuation τ sig (Elt F) := fun c b => m ((c : Dev nD), b)
/-- after the first host stretch (the first pallas_call's entry), -/
abbrev U1 : Dev nD → Valuation τ sig (Elt F) := fun c => StableHlo.after hostOps0 (U0 m c)
abbrev E1 : (c : Dev nD) → (b : Ref sig .tc) → Buf (Elt F) ((c : Thread nD τ).loc b) := fun c b => U1 m c b
/-- at the first pallas_call's exit: its arrays at what its write-backs leave, every other buffer as entered, -/
def U2 (c : Dev nD) : Valuation τ sig (Elt F) :=
  Pipeline.withArrays spec0 c (U1 m c) fun w => (dat0 (E1 m) c).arrAt w cfg0.N
theorem U2_arr (c : Dev nD) (w : Fin cfg0.W) :
    U2 m c (Proc.devRef .tc (Pipeline.arrRef spec0 w)) = (dat0 (E1 m) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m c (Proc.devRef .tc b) = U1 m c (Proc.devRef .tc b) := by
  unfold U2; exact Pipeline.withArrays_of_ne spec0 c _ _ b hb
abbrev X2 : (c : Dev nD) → (b : Ref sig .tc) → Buf (Elt F) ((c : Thread nD τ).loc b) := fun c b => U2 m c b
theorem hF0 (c : Dev nD) (w : Fin cfg0.W) : (dat0 (E1 m) c).arrAt w cfg0.N = X2 m c (Pipeline.arrRef spec0 w) :=
  (U2_arr m c w).symm
theorem hrest0 (c : Dev nD) : ∀ b, b ∉ Finset.univ.image (Pipeline.arrRef spec0) → X2 m c b = E1 m c b :=
  fun b hb => U2_of_ne m c b fun w e => hb (Finset.mem_image.mpr ⟨w, Finset.mem_univ _, e⟩)
/-- after the second host stretch (the second pallas_call's entry), -/
abbrev U3 : Dev nD → Valuation τ sig (Elt F) := fun c => StableHlo.after hostOps1 (U2 m c)
abbrev E3 : (c : Dev nD) → (b : Ref sig .tc) → Buf (Elt F) ((c : Thread nD τ).loc b) := fun c b => U3 m c b
/-- and at the second pallas_call's exit, which is the program's end. -/
def U4 (c : Dev nD) : Valuation τ sig (Elt F) :=
  Pipeline.withArrays spec1 c (U3 m c) fun w => (dat1 (E3 m) c).arrAt w cfg1.N
theorem U4_arr (c : Dev nD) (w : Fin cfg1.W) :
    U4 m c (Proc.devRef .tc (Pipeline.arrRef spec1 w)) = (dat1 (E3 m) c).arrAt w cfg1.N := by
  unfold U4; exact Pipeline.withArrays_arr spec1 launch1.win.arr_inj c _ _ w
theorem U4_of_ne (c : Dev nD) (b : Ref sig .tc) (hb : ∀ w, Pipeline.arrRef spec1 w ≠ b) :
    U4 m c (Proc.devRef .tc b) = U3 m c (Proc.devRef .tc b) := by
  unfold U4; exact Pipeline.withArrays_of_ne spec1 c _ _ b hb
abbrev X4 : (c : Dev nD) → (b : Ref sig .tc) → Buf (Elt F) ((c : Thread nD τ).loc b) := fun c b => U4 m c b
theorem hF1 (c : Dev nD) (w : Fin cfg1.W) : (dat1 (E3 m) c).arrAt w cfg1.N = X4 m c (Pipeline.arrRef spec1 w) :=
  (U4_arr m c w).symm
theorem hrest1 (c : Dev nD) : ∀ b, b ∉ Finset.univ.image (Pipeline.arrRef spec1) → X4 m c b = E3 m c b :=
  fun b hb => U4_of_ne m c b fun w e => hb (Finset.mem_image.mpr ⟨w, Finset.mem_univ _, e⟩)

/-- No host operation and no pallas_call writes an argument: the fold at an argument walks back to the launch memory. -/
theorem U4_main_arg0 (c : Dev nD) : U4 m c (Proc.devRef .tc main_arg0) = m ((c : Thread nD τ).loc main_arg0) :=
  calc U4 m c (Proc.devRef .tc main_arg0)
    _ = U3 m c (Proc.devRef .tc main_arg0) := U4_of_ne m c main_arg0 (by decide)
    _ = U2 m c (Proc.devRef .tc main_arg0) := StableHlo.after_of_writes_sub hostOps1 _ hostOps1_writes (by decide)
    _ = U1 m c (Proc.devRef .tc main_arg0) := (U2_arr m c 0).trans (((dat0 (E1 m) c).arrAt_in 0 rfl _).trans (A_eq0 (E1 m) c 0))
    _ = U0 m c (Proc.devRef .tc main_arg0) := StableHlo.after_of_writes_sub hostOps0 _ hostOps0_writes (by decide)
    _ = m ((c : Thread nD τ).loc main_arg0) := rfl
theorem U4_main_arg1 (c : Dev nD) : U4 m c (Proc.devRef .tc main_arg1) = m ((c : Thread nD τ).loc main_arg1) :=
  calc U4 m c (Proc.devRef .tc main_arg1)
    _ = U3 m c (Proc.devRef .tc main_arg1) := U4_of_ne m c main_arg1 (by decide)
    _ = U2 m c (Proc.devRef .tc main_arg1) := StableHlo.after_of_writes_sub hostOps1 _ hostOps1_writes (by decide)
    _ = U1 m c (Proc.devRef .tc main_arg1) := U2_of_ne m c main_arg1 (by decide)
    _ = U0 m c (Proc.devRef .tc main_arg1) := StableHlo.after_of_writes_sub hostOps0 _ hostOps0_writes (by decide)
    _ = m ((c : Thread nD τ).loc main_arg1) := rfl
theorem U4_main_arg2 (c : Dev nD) : U4 m c (Proc.devRef .tc main_arg2) = m ((c : Thread nD τ).loc main_arg2) :=
  calc U4 m c (Proc.devRef .tc main_arg2)
    _ = U3 m c (Proc.devRef .tc main_arg2) := U4_of_ne m c main_arg2 (by decide)
    _ = U2 m c (Proc.devRef .tc main_arg2) := StableHlo.after_of_writes_sub hostOps1 _ hostOps1_writes (by decide)
    _ = U1 m c (Proc.devRef .tc main_arg2) := U2_of_ne m c main_arg2 (by decide)
    _ = U0 m c (Proc.devRef .tc main_arg2) := StableHlo.after_of_writes_sub hostOps0 _ hostOps0_writes (by decide)
    _ = m ((c : Thread nD τ).loc main_arg2) := rfl
theorem U4_main_arg3 (c : Dev nD) : U4 m c (Proc.devRef .tc main_arg3) = m ((c : Thread nD τ).loc main_arg3) :=
  calc U4 m c (Proc.devRef .tc main_arg3)
    _ = U3 m c (Proc.devRef .tc main_arg3) := U4_of_ne m c main_arg3 (by decide)
    _ = U2 m c (Proc.devRef .tc main_arg3) := StableHlo.after_of_writes_sub hostOps1 _ hostOps1_writes (by decide)
    _ = U1 m c (Proc.devRef .tc main_arg3) := U2_of_ne m c main_arg3 (by decide)
    _ = U0 m c (Proc.devRef .tc main_arg3) := StableHlo.after_of_writes_sub hostOps0 _ hostOps0_writes (by decide)
    _ = m ((c : Thread nD τ).loc main_arg3) := rfl

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at U4, the generator register at some state. -/
abbrev Tₙ (c : Dev nD) : sProp 𝕄 := iprop(StableHlo.held (c : Thread nD τ) (Pipeline.ucRefs τ sig) (U4 m c) ∗ ∃ r, prngReg c r)

set_option backward.isDefEq.respectTransparency.types false in
/-- The first pallas_call as a segment: entered from every unscoped buffer at U1, left at U2. Its arrays are split out of
    the unscoped buffers at entry and put back at their final contents at exit; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call as a segment: entered from every unscoped buffer at U3, left at U4. Its arrays are split out of
    the unscoped buffers at entry and put back at their final contents at exit; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (U3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (X4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's four segments in order. -/
abbrev segs : List (Pipeline.Seg (pcfgs (F := F)) adm (pdats m) () defs₀ 𝒱₀ L lv) :=
  [ .host (hseg hostOps0 hostOps0_sub hostOps0_fresh (U0 m)),
    .region (reg0 m),
    .host (hseg hostOps1 hostOps1_sub hostOps1_fresh (U2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every unscoped buffer ends at the fold's last contents U4. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = U4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U4 m c b)
    (hfin := fun c s' => by
      iintro ⟨⟨Hh, -⟩, HSI⟩
      unfold StableHlo.held
      imodintro
      iapply (pointsTo_read_all (Pipeline.ucRefs τ sig) (fun b => (((c : Thread nD τ)).1, b)) (U4 m c) s')
      isplitl [Hh] <;> iassumption)
    (hQ := fun s h c => h c)

/-- THE FRAME: the program terminates without a fault and its argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (U4_main_arg0 m c),
     (h c _ (mem_uc main_arg1 (by decide))).trans (U4_main_arg1 m c),
     (h c _ (mem_uc main_arg2 (by decide))).trans (U4_main_arg2 m c),
     (h c _ (mem_uc main_arg3 (by decide))).trans (U4_main_arg3 m c)⟩) (run_all m ρ)

end Cert.Kernel.Hand

end
-- ==== Proof.KI.Reg0.lean ====
/-
  The first pallas_call (the projection x · bᵀ accumulated over four blocks of the contracted axis) as a pipeline
  region, at a PARAMETER V: the buffers' contents when the region is entered.
  The grid is 16 × 4, the second coordinate k walking the contracted axis. The body keeps an accumulator in a scratch
  buffer across the four points of a row block: at k = 0 it resets it, at every point it adds the product of its two
  input blocks to it and copies it into the output block. So after the point at position n the scratch and the output
  buffer both hold the partial sum up to n (outsAt0, by recursion on the position: a reset at the positions ≡ 0 mod 4,
  otherwise one more block product over what the position before left). The region's invariant between points is the
  scratch at that partial sum, beside the other scoped buffers and the generator register at anything.
-/
import proofs.«178191_j23596550324368_1_alg».proof.Proof.Gen.KernelIdeal.Launch
import proofs.«178191_j23596550324368_1_alg».proof.Proof.Gen.KernelIdeal.Skeleton
import proofs.«178191_j23596550324368_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one branch: taken where the grid's second coordinate is zero, -/
abbrev cond0 (i : grid0.Coords) : Prop := (Scalar.cmpi .ne (Scalar.extui (Scalar.cmpi .eq (BitVec.ofNat 32 (i 1).val) 0#32)) 0#32) = 1#1
/-- that is at the positions ≡ 0 (mod 4). -/
theorem hcond0 : ∀ t : Fin cfg0.N, cond0 (grid0.coords t) ↔ t.val % 4 = 0 :=
  (by decide +kernel : ∀ t : Fin grid0.N, cond0 (grid0.coords t) ↔ t.val % 4 = 0)

/-- One staging buffer of the output window, through which its contents are stated. -/
abbrev VO0 : View sig .tc .vmem S512x1024 .f32 := (Memref.whole cc0_stg2_0 : Memref sig .tc .vmem S512x1024 .f32).view
/-- Each window's current staging memref at point t, as the pipeline passes it. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S512x1024 .f32 := Memref.whole cc0_scratch0
abbrev VS0 : View sig .tc .vmem S512x1024 .f32 := scM0.view

/-- The scoped buffers that are neither a staging buffer of this region nor its accumulator, each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's entry invariant, with the accumulator split off as a memref owned at some contents. -/
theorem PhiA0_eq (c : Dev nD) :
    (Pipeline.ΦA spec0 c : sProp 𝕄)
      = iprop(iprop((∃ d, owns (c : Thread nD τ) scM0 fullShare d) ∗ Rest0 c) ∗ (∃ r, prngReg c r)) := by
  unfold Pipeline.ΦA Rest0; rw [scopedRest0_eq]; simp only [scM0, owns_whole]; try rfl

set_option maxHeartbeats 1000000 in
/-- The body where the branch is taken (k = 0): the pieces it leaves in the output buffer and in the accumulator, with
    the proof that on whole memrefs — the inputs at x0, x1, the output and the accumulator at anything — it runs to the
    continuation holding the inputs as they were and those pieces written. -/
noncomputable def kernelRun0_A (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : cond0 i)
    (x0 : Vec F S512x1024 .f32) (x1 : Vec F S1024x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__mm1_kernel i arg2 harg2 arg3 harg3 arg4 harg4 arg5 harg5) K } := by
  refine ⟨?_, ?_, fun E K => ?run⟩
  case run =>
    simp only [cc0__mm1_kernel_eq_skeleton]; unfold cc0__mm1_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 1000000 in
/-- The body where the branch is not taken (k ≠ 0): the same, the accumulator entering at the contents xs0 the point
    before left. -/
noncomputable def kernelRun0_B (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : ¬cond0 i)
    (x0 : Vec F S512x1024 .f32) (x1 : Vec F S1024x1024 .f32) (xs0 : Vec F S512x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__mm1_kernel i arg2 harg2 arg3 harg3 arg4 harg4 arg5 harg5) K } := by
  refine ⟨?_, ?_, fun E K => ?run⟩
  case run =>
    simp only [cc0__mm1_kernel_eq_skeleton]; unfold cc0__mm1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Reg0Dat.lean ====
/-
  The first pallas_call's proof data: what its output block and its accumulator hold after each grid point, the
  invariant carrying the accumulator from point to point, and the body obligation at every point.
-/
import proofs.«178191_j23596550324368_1_alg».proof.Proof.KI.Reg0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Where the branch is taken: the pieces stored into the output block cover it; what they leave. -/
theorem cover0_A (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : cond0 i)
    (x0 : Vec F S512x1024 .f32) (x1 : Vec F S1024x1024 .f32) (y : S512x1024.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S512x1024.size (by sl_kernel_rfl) y
def out0_A (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : cond0 i)
    (x0 : Vec F S512x1024 .f32) (x1 : Vec F S1024x1024 .f32) : Vec F S512x1024 .f32 :=
  VO0.read (Elt F) (VO0.writes (Elt F) VO0.junk (kernelRun0_A c i arg2 harg2 arg3 harg3 arg4 harg4 arg5 harg5 hc0 x0 x1).1)
/-- The same for the accumulator. -/
theorem scover0_A (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : cond0 i)
    (x0 : Vec F S512x1024 .f32) (x1 : Vec F S1024x1024 .f32) (y : S512x1024.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S512x1024.size (by sl_kernel_rfl) y
def sout0_A (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : cond0 i)
    (x0 : Vec F S512x1024 .f32) (x1 : Vec F S1024x1024 .f32) : Vec F S512x1024 .f32 :=
  VS0.read (Elt F) (VS0.writes (Elt F) VS0.junk (kernelRun0_A c i arg2 harg2 arg3 harg3 arg4 harg4 arg5 harg5 hc0 x0 x1).2.1)

/-- Where the branch is not taken, over the accumulator's contents xs0 at entry. -/
theorem cover0_B (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : ¬cond0 i)
    (x0 : Vec F S512x1024 .f32) (x1 : Vec F S1024x1024 .f32) (xs0 : Vec F S512x1024 .f32) (y : S512x1024.Idx) :
    ∃ pc ∈ (kernelRun0_B c i arg2 harg2 arg3 harg3 arg4 harg4 arg5 harg5 hc0 x0 x1 xs0).1, y ∈ pc.1.set :=
  View.cover_of_tiledL (kernelRun0_B c i arg2 harg2 arg3 harg3 arg4 harg4 arg5 harg5 hc0 x0 x1 xs0).1 S512x1024.size (by sl_kernel_rfl) y
def out0_B (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : ¬cond0 i)
    (x0 : Vec F S512x1024 .f32) (x1 : Vec F S1024x1024 .f32) (xs0 : Vec F S512x1024 .f32) : Vec F S512x1024 .f32 :=
  VO0.read (Elt F) (VO0.writes (Elt F) VO0.junk (kernelRun0_B c i arg2 harg2 arg3 harg3 arg4 harg4 arg5 harg5 hc0 x0 x1 xs0).1)
theorem scover0_B (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : ¬cond0 i)
    (x0 : Vec F S512x1024 .f32) (x1 : Vec F S1024x1024 .f32) (xs0 : Vec F S512x1024 .f32) (y : S512x1024.Idx) :
    ∃ pc ∈ (kernelRun0_B c i arg2 harg2 arg3 harg3 arg4 harg4 arg5 harg5 hc0 x0 x1 xs0).2.1, y ∈ pc.1.set :=
  View.cover_of_tiledL (kernelRun0_B c i arg2 harg2 arg3 harg3 arg4 harg4 arg5 harg5 hc0 x0 x1 xs0).2.1 S512x1024.size (by sl_kernel_rfl) y
def sout0_B (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : ¬cond0 i)
    (x0 : Vec F S512x1024 .f32) (x1 : Vec F S1024x1024 .f32) (xs0 : Vec F S512x1024 .f32) : Vec F S512x1024 .f32 :=
  VS0.read (Elt F) (VS0.writes (Elt F) VS0.junk (kernelRun0_B c i arg2 harg2 arg3 harg3 arg4 harg4 arg5 harg5 hc0 x0 x1 xs0).2.1)

/-- THE ACCUMULATION. What the output block's staging buffer and the accumulator hold after the body at position n:
    at a position ≡ 0 (mod 4) what the reset-and-add leaves, otherwise what one more add leaves over the accumulator of
    the position before. -/
def outsAt0 (c : Dev nD) : (n : ℕ) → n < cfg0.N → Vec F S512x1024 .f32 × Vec F S512x1024 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩),
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩))
  | n + 1, hn =>
    if h0 : (n + 1) % 4 = 0 then
      (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩),
        sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0 ⟨n + 1, hn⟩).mpr h0) (iblk0 V c 0 ⟨n + 1, hn⟩) (iblk0 V c 1 ⟨n + 1, hn⟩))
    else
      (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2,
        sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2)

/-- outsAt0 at a position where the accumulator is reset. -/
theorem outsAt0_A (c : Dev nD) (t : Fin cfg0.N) (h0 : t.val % 4 = 0) :
    outsAt0 V c t.val t.isLt = (out0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t),
      sout0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t)) := by
  obtain ⟨n, hn⟩ := t
  cases n with
  | zero => exact rfl
  | succ n => exact (dif_pos h0).trans rfl

/-- outsAt0 at any other position: one more add over what the position before left. -/
theorem outsAt0_B (c : Dev nD) (t : Fin cfg0.N) (h0 : ¬t.val % 4 = 0) :
    outsAt0 V c t.val t.isLt = (out0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: at entry every scoped buffer at anything; afterwards the accumulator at
    what the position before left, the other scoped buffers and the generator register at anything. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ Rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ Rest0 c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ Rest0 c) ∗ (∃ r, prngReg c r)) := by
  cases n with
  | zero => exact absurd rfl hz
  | succ n => rfl

/-- The proof data of this pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at any point: the inputs' memrefs hold their blocks; the position says whether the accumulator is reset;
    the invariant hands the body the accumulator (at anything at the first point, else at what the position before left)
    and takes it back at this position's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [after0_0, after0_1, after0_2]
  have hN : t.val < 64 := lt_of_lt_of_eq t.isLt (show cfg0.N = 64 from N_0)
  by_cases h0 : t.val % 4 = 0
  · rw [outsAt0_A V c t h0]
    unfold out0_A sout0_A; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0 t).mpr h0) (iblk0 V c 0 t) (iblk0 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
    · rw [PhiS_castSucc V c t, PhiS_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0 t).mpr h0) (iblk0 V c 0 t) (iblk0 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
  · rw [outsAt0_B V c t h0]
    unfold out0_B sout0_B; (try dsimp only)
    have hz : t.val ≠ 0 := fun e => h0 (by rw [e])
    rw [PhiS_castSucc V c t, PhiS_pos V c _ _ hz]
    iintro ⟨⟨⟨HS0, HR⟩, Hg⟩, Ho, ⟨%d0, H0⟩, ⟨%d1, H1⟩, ⟨%d2, H2⟩⟩
    iapply ((kernelRun0_B c (grid0.coords t) _ _ _ _ _ _ _ _ (fun h => h0 ((hcond0 t).mp h)) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HR⟩, Hg⟩
  isplitl [HS0 HR]
  · isplitl [HS0]
    · iexists _; iexact HS0
    iexact HR
  iexact Hg

end Cert.KernelIdeal.Hand

end
-- ==== Proof.KI.Reg1.lean ====
/-
  The second pallas_call (quantise the projection block, multiply by a block of the second weight matrix, add the bias
  row) as a pipeline region, at a PARAMETER V: the buffers' contents when the region is entered.
  Every grid point loads its four input blocks whole, computes one value and stores it whole into the output block; so
  the output's staging buffer after the body is that value of the four input blocks (out1), whatever it held before,
  and the inputs' buffers are left as found. The region keeps nothing between points.
-/
import proofs.«178191_j23596550324368_1_alg».proof.Proof.Gen.KernelIdeal.Launch
import proofs.«178191_j23596550324368_1_alg».proof.Proof.Gen.KernelIdeal.Skeleton
import proofs.«178191_j23596550324368_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved since the fetch). One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole 1024×1024 block, the whole 1×1 block and the whole 1×1024 block as rectangles. -/
abbrev rBig : Rect S1024x1024 := Rect.unit (s := S1024x1024) ![0, 0] S1024x1024.size inb_S1024x1024_S1024x1024_0_0
abbrev rOne : Rect S1x1 := Rect.unit (s := S1x1) ![0, 0] S1x1.size inb_S1x1_S1x1_0_0
abbrev rRow : Rect S1x1024 := Rect.unit (s := S1x1024) ![0, 0] S1x1024.size inb_S1x1024_S1x1024_0_0

/-- The output block after the body, from the four input blocks (projection, scale, weight, bias): its one store. -/
def out1 (x0 : Vec F S1024x1024 .f32) (x1 : Vec F S1x1 .f32) (x2 : Vec F S1024x1024 .f32) (x3 : Vec F S1x1024 .f32) : Vec F S1024x1024 .f32 :=
  View.canon [⟨rBig, k1_pay1 (View.ld x1 rOne) (View.ld x0 rBig) (View.ld x2 rBig) (View.ld x3 rRow)⟩]

/-- The one store covers the block. -/
theorem cover1 (p0 : Vec F S1024x1024 .f32) (y : S1024x1024.Idx) :
    ∃ pc ∈ ([⟨rBig, p0⟩] : List (View.Piece (Elt F) S1024x1024 .f32)), y ∈ pc.1.set :=
  View.cover_of_tiled [⟨rBig, p0⟩] S1024x1024.size (by rfl) y

set_option maxHeartbeats 1000000 in
/-- The body on whole staging memrefs: inputs at contents x0..x3 (kept), the output at anything, ends with the output at out1. -/
theorem sound_kernel1 (c : Dev nD) (E : Set ℕ) (i : grid1.Coords)
    (arg2 : Memref sig .tc .vmem S1024x1024 .f32) (harg2 : arg2.IsWhole) (arg3 : Memref sig .tc .vmem S1x1 .f32) (harg3 : arg3.IsWhole)
    (arg4 : Memref sig .tc .vmem S1024x1024 .f32) (harg4 : arg4.IsWhole) (arg5 : Memref sig .tc .vmem S1x1024 .f32) (harg5 : arg5.IsWhole)
    (arg6 : Memref sig .tc .vmem S1024x1024 .f32) (harg6 : arg6.IsWhole)
    (x0 : Vec F S1024x1024 .f32) (x1 : Vec F S1x1 .f32) (x2 : Vec F S1024x1024 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1 x0 x1 x2 x3)) -∗ K ⟨⟩))
      ⊢ wp frame (wpE (defs₀ (F := F)) Variants.none c none) E (cc1__mm2_kernel i arg2 harg2 arg3 harg3 arg4 harg4 arg5 harg5 arg6 harg6) K := by
  simp only [cc1__mm2_kernel_eq_skeleton]; unfold cc1__mm2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-- The proof data of this pipeline on core c: arrays as found; inputs left as their blocks, the output at out1 of them;
    the invariant says nothing of the scratch and the generator register beyond holding them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program as a run: host operations (two transposes and a reshape), the first pallas_call, host operations
  (the tensor-wide scale of its result), the second pallas_call. The buffers' contents at each boundary are a fold from
  the launch memory (U0 … U4): a host stretch applies its operations, a pallas_call replaces its arrays by what its
  write-backs leave. Every weakly fair execution terminates with every unscoped buffer at U4; the argument arrays are
  read back through the fold to their launch contents.
-/
import proofs.«178191_j23596550324368_1_alg».proof.Proof.KI.Reg0Dat
import proofs.«178191_j23596550324368_1_alg».proof.Proof.KI.Reg1
import proofs.«178191_j23596550324368_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch, -/
abbrev U0 : Dev nD → Valuation τ sig (Elt F) := fun c b => m ((c : Dev nD), b)
/-- after the first host stretch (the first pallas_call's entry), -/
abbrev U1 : Dev nD → Valuation τ sig (Elt F) := fun c => StableHlo.after hostOps0 (U0 m c)
abbrev E1 : (c : Dev nD) → (b : Ref sig .tc) → Buf (Elt F) ((c : Thread nD τ).loc b) := fun c b => U1 m c b
/-- at the first pallas_call's exit: its arrays at what its write-backs leave, every other buffer as entered, -/
def U2 (c : Dev nD) : Valuation τ sig (Elt F) :=
  Pipeline.withArrays spec0 c (U1 m c) fun w => (dat0 (E1 m) c).arrAt w cfg0.N
theorem U2_arr (c : Dev nD) (w : Fin cfg0.W) :
    U2 m c (Proc.devRef .tc (Pipeline.arrRef spec0 w)) = (dat0 (E1 m) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m c (Proc.devRef .tc b) = U1 m c (Proc.devRef .tc b) := by
  unfold U2; exact Pipeline.withArrays_of_ne spec0 c _ _ b hb
abbrev X2 : (c : Dev nD) → (b : Ref sig .tc) → Buf (Elt F) ((c : Thread nD τ).loc b) := fun c b => U2 m c b
theorem hF0 (c : Dev nD) (w : Fin cfg0.W) : (dat0 (E1 m) c).arrAt w cfg0.N = X2 m c (Pipeline.arrRef spec0 w) :=
  (U2_arr m c w).symm
theorem hrest0 (c : Dev nD) : ∀ b, b ∉ Finset.univ.image (Pipeline.arrRef spec0) → X2 m c b = E1 m c b :=
  fun b hb => U2_of_ne m c b fun w e => hb (Finset.mem_image.mpr ⟨w, Finset.mem_univ _, e⟩)
/-- after the second host stretch (the second pallas_call's entry), -/
abbrev U3 : Dev nD → Valuation τ sig (Elt F) := fun c => StableHlo.after hostOps1 (U2 m c)
abbrev E3 : (c : Dev nD) → (b : Ref sig .tc) → Buf (Elt F) ((c : Thread nD τ).loc b) := fun c b => U3 m c b
/-- and at the second pallas_call's exit, which is the program's end. -/
def U4 (c : Dev nD) : Valuation τ sig (Elt F) :=
  Pipeline.withArrays spec1 c (U3 m c) fun w => (dat1 (E3 m) c).arrAt w cfg1.N
theorem U4_arr (c : Dev nD) (w : Fin cfg1.W) :
    U4 m c (Proc.devRef .tc (Pipeline.arrRef spec1 w)) = (dat1 (E3 m) c).arrAt w cfg1.N := by
  unfold U4; exact Pipeline.withArrays_arr spec1 launch1.win.arr_inj c _ _ w
theorem U4_of_ne (c : Dev nD) (b : Ref sig .tc) (hb : ∀ w, Pipeline.arrRef spec1 w ≠ b) :
    U4 m c (Proc.devRef .tc b) = U3 m c (Proc.devRef .tc b) := by
  unfold U4; exact Pipeline.withArrays_of_ne spec1 c _ _ b hb
abbrev X4 : (c : Dev nD) → (b : Ref sig .tc) → Buf (Elt F) ((c : Thread nD τ).loc b) := fun c b => U4 m c b
theorem hF1 (c : Dev nD) (w : Fin cfg1.W) : (dat1 (E3 m) c).arrAt w cfg1.N = X4 m c (Pipeline.arrRef spec1 w) :=
  (U4_arr m c w).symm
theorem hrest1 (c : Dev nD) : ∀ b, b ∉ Finset.univ.image (Pipeline.arrRef spec1) → X4 m c b = E3 m c b :=
  fun b hb => U4_of_ne m c b fun w e => hb (Finset.mem_image.mpr ⟨w, Finset.mem_univ _, e⟩)

/-- No host operation and no pallas_call writes an argument: the fold at an argument walks back to the launch memory. -/
theorem U4_main_arg0 (c : Dev nD) : U4 m c (Proc.devRef .tc main_arg0) = m ((c : Thread nD τ).loc main_arg0) :=
  calc U4 m c (Proc.devRef .tc main_arg0)
    _ = U3 m c (Proc.devRef .tc main_arg0) := U4_of_ne m c main_arg0 (by decide)
    _ = U2 m c (Proc.devRef .tc main_arg0) := StableHlo.after_of_writes_sub hostOps1 _ hostOps1_writes (by decide)
    _ = U1 m c (Proc.devRef .tc main_arg0) := (U2_arr m c 0).trans (((dat0 (E1 m) c).arrAt_in 0 rfl _).trans (A_eq0 (E1 m) c 0))
    _ = U0 m c (Proc.devRef .tc main_arg0) := StableHlo.after_of_writes_sub hostOps0 _ hostOps0_writes (by decide)
    _ = m ((c : Thread nD τ).loc main_arg0) := rfl
theorem U4_main_arg1 (c : Dev nD) : U4 m c (Proc.devRef .tc main_arg1) = m ((c : Thread nD τ).loc main_arg1) :=
  calc U4 m c (Proc.devRef .tc main_arg1)
    _ = U3 m c (Proc.devRef .tc main_arg1) := U4_of_ne m c main_arg1 (by decide)
    _ = U2 m c (Proc.devRef .tc main_arg1) := StableHlo.after_of_writes_sub hostOps1 _ hostOps1_writes (by decide)
    _ = U1 m c (Proc.devRef .tc main_arg1) := U2_of_ne m c main_arg1 (by decide)
    _ = U0 m c (Proc.devRef .tc main_arg1) := StableHlo.after_of_writes_sub hostOps0 _ hostOps0_writes (by decide)
    _ = m ((c : Thread nD τ).loc main_arg1) := rfl
theorem U4_main_arg2 (c : Dev nD) : U4 m c (Proc.devRef .tc main_arg2) = m ((c : Thread nD τ).loc main_arg2) :=
  calc U4 m c (Proc.devRef .tc main_arg2)
    _ = U3 m c (Proc.devRef .tc main_arg2) := U4_of_ne m c main_arg2 (by decide)
    _ = U2 m c (Proc.devRef .tc main_arg2) := StableHlo.after_of_writes_sub hostOps1 _ hostOps1_writes (by decide)
    _ = U1 m c (Proc.devRef .tc main_arg2) := U2_of_ne m c main_arg2 (by decide)
    _ = U0 m c (Proc.devRef .tc main_arg2) := StableHlo.after_of_writes_sub hostOps0 _ hostOps0_writes (by decide)
    _ = m ((c : Thread nD τ).loc main_arg2) := rfl
theorem U4_main_arg3 (c : Dev nD) : U4 m c (Proc.devRef .tc main_arg3) = m ((c : Thread nD τ).loc main_arg3) :=
  calc U4 m c (Proc.devRef .tc main_arg3)
    _ = U3 m c (Proc.devRef .tc main_arg3) := U4_of_ne m c main_arg3 (by decide)
    _ = U2 m c (Proc.devRef .tc main_arg3) := StableHlo.after_of_writes_sub hostOps1 _ hostOps1_writes (by decide)
    _ = U1 m c (Proc.devRef .tc main_arg3) := U2_of_ne m c main_arg3 (by decide)
    _ = U0 m c (Proc.devRef .tc main_arg3) := StableHlo.after_of_writes_sub hostOps0 _ hostOps0_writes (by decide)
    _ = m ((c : Thread nD τ).loc main_arg3) := rfl

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at U4, the generator register at some state. -/
abbrev Tₙ (c : Dev nD) : sProp 𝕄 := iprop(StableHlo.held (c : Thread nD τ) (Pipeline.ucRefs τ sig) (U4 m c) ∗ ∃ r, prngReg c r)

set_option backward.isDefEq.respectTransparency.types false in
/-- The first pallas_call as a segment: entered from every unscoped buffer at U1, left at U2. Its arrays are split out of
    the unscoped buffers at entry and put back at their final contents at exit; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call as a segment: entered from every unscoped buffer at U3, left at U4. Its arrays are split out of
    the unscoped buffers at entry and put back at their final contents at exit; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (U3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (X4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's four segments in order. -/
abbrev segs : List (Pipeline.Seg (pcfgs (F := F)) adm (pdats m) () defs₀ 𝒱₀ L lv) :=
  [ .host (hseg hostOps0 hostOps0_sub hostOps0_fresh (U0 m)),
    .region (reg0 m),
    .host (hseg hostOps1 hostOps1_sub hostOps1_fresh (U2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every unscoped buffer ends at the fold's last contents U4. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = U4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U4 m c b)
    (hfin := fun c s' => by
      iintro ⟨⟨Hh, -⟩, HSI⟩
      unfold StableHlo.held
      imodintro
      iapply (pointsTo_read_all (Pipeline.ucRefs τ sig) (fun b => (((c : Thread nD τ)).1, b)) (U4 m c) s')
      isplitl [Hh] <;> iassumption)
    (hQ := fun s h c => h c)

/-- THE FRAME: the program terminates without a fault and its argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (U4_main_arg0 m c),
     (h c _ (mem_uc main_arg1 (by decide))).trans (U4_main_arg1 m c),
     (h c _ (mem_uc main_arg2 (by decide))).trans (U4_main_arg2 m c),
     (h c _ (mem_uc main_arg3 (by decide))).trans (U4_main_arg3 m c)⟩) (run_all m ρ)

end Cert.KernelIdeal.Hand

end
-- ==== Proof.Spec.lean ====
/-
  What the two programs compute, as functions of the four argument arrays over the extended reals.

  x : [8192, 4096] activations, bw : [1024, 4096] and aw : [4096, 1024] the two weight matrices, ab : [4096] the bias.
    y[p, r]   = Σ_k x[p, k] · bw[r, k]                         (the low-rank projection)
    s         = max(max_{p,r} |y[p, r]| · 1, 1e-8) / 3          (one scale for the whole tensor)
    q(v)      = min(3, max(-4, roundeven(v / s))) · s           (3-bit symmetric fake quantisation)
    out[p, n] = Σ_r q(y[p, r]) · aw[n, r] + ab[n]
-/
import Idealize.ShloMosaic.PureOps.Ideal
import Idealize.ShloMosaic.Lib.ValueIdx

noncomputable section

namespace Cert.Quant

open Idealize.ShloMosaic Idealize.ShloMosaic.ValueIdx
open scoped BigOperators

abbrev SX : Shape := ⟨2, ![8192, 4096]⟩
abbrev SB : Shape := ⟨2, ![1024, 4096]⟩
abbrev SA : Shape := ⟨2, ![4096, 1024]⟩
abbrev SBias : Shape := ⟨1, ![4096]⟩
abbrev SY : Shape := ⟨2, ![8192, 1024]⟩
abbrev S0 : Shape := ⟨0, ![]⟩

theorem reducesY : SY.ReducesTo [0, 1] S0 := by decide
theorem posS0 : 0 < S0.numel := by decide

/-- The projection: y[p, r] = Σ_k x[p, k] · bw[r, k]. -/
def yAt (x : Vec Ideal SX .f32) (bw : Vec Ideal SB .f32) (p : Fin 8192) (r : Fin 1024) : EReal :=
  ∑ k : Fin 4096, x (ix2 p k) * bw (ix2 r k)

/-- The projection as an array. -/
def Y (x : Vec Ideal SX .f32) (bw : Vec Ideal SB .f32) : Vec Ideal SY .f32 :=
  fun j => yAt x bw ⟨(j 0).val, (j 0).isLt⟩ ⟨(j 1).val, (j 1).isLt⟩

/-- The tensor-wide scale of an array y: max(max|y| · 1, 1e-8) / 3, spelt with the operations both programs apply. -/
def scaleOf (y : Vec Ideal SY .f32) : Vec Ideal S0 .f32 :=
  Host.divf (F := Ideal)
    (maximumf
      (mulf (Host.reduce (FloatOps.maximumf (F := Ideal) (φ := .f32)) (Host.absf (F := Ideal) y) (constant (F := Ideal) S0 .f32 0xFF800000#32) reducesY posS0)
        (constant (F := Ideal) S0 .f32 0x3F800000#32))
      (constant (F := Ideal) S0 .f32 0x322BCC77#32))
    (constant (F := Ideal) S0 .f32 0x40400000#32)

/-- Fake quantisation of one value v at scale s: min(3, max(-4, roundeven(v / s))) · s. -/
def qf (s v : EReal) : EReal :=
  FloatOps.mulf (F := Ideal) (φ := .f32)
    (FloatOps.minimumf (F := Ideal) (φ := .f32) (FloatOps.sitofp (F := Ideal) .f32 (3#32 : BitVec 32))
      (FloatOps.maximumf (F := Ideal) (φ := .f32) (FloatOps.sitofp (F := Ideal) .f32 (4294967292#32 : BitVec 32))
        (FloatOps.roundeven (F := Ideal) (φ := .f32) (FloatOps.divf (F := Ideal) (φ := .f32) v s))))
    s

/-- The scale the programs use: that of the projection. -/
def scale (x : Vec Ideal SX .f32) (bw : Vec Ideal SB .f32) : EReal := scaleOf (Y x bw) ix0

/-- One entry of the result: Σ_r q(y[p, r]) · aw[n, r] + ab[n]. -/
def outAt (x : Vec Ideal SX .f32) (bw : Vec Ideal SB .f32) (aw : Vec Ideal SA .f32) (ab : Vec Ideal SBias .f32)
    (p : Fin 8192) (n : Fin 4096) : EReal :=
  (∑ r : Fin 1024, qf (scale x bw) (yAt x bw p r) * aw (ix2 n r)) + ab (ix1 n)

/-- The result as an array. -/
def OUT (x : Vec Ideal SX .f32) (bw : Vec Ideal SB .f32) (aw : Vec Ideal SA .f32) (ab : Vec Ideal SBias .f32) : Vec Ideal SX .f32 :=
  fun j => outAt x bw aw ab ⟨(j 0).val, (j 0).isLt⟩ ⟨(j 1).val, (j 1).isLt⟩

end Cert.Quant

end
-- ==== Proof.KI.ValHost.lean ====
/-
  The host operations' results read off the run's fold, at the extended reals: before the first pallas_call the two
  weight matrices are transposed and the bias becomes a row; between the two calls the tensor-wide scale of the
  projection is computed; nothing else changes the buffers a call reads.
-/
import proofs.«178191_j23596550324368_1_alg».proof.Proof.KI.Run
import proofs.«178191_j23596550324368_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The first call finds the activations as launched, -/
theorem E1_arg0 (c : Dev nD) : E1 m c main_arg0 = m ((c : Thread nD τ).loc main_arg0) :=
  StableHlo.after_of_writes_sub hostOps0 _ hostOps0_writes (by decide)
/-- and the first weight matrix transposed. -/
theorem E1_v0 (c : Dev nD) : (E1 m c main_v0 : S4096x1024.Idx → EReal)
    = transpose S4096x1024 [1, 0] (m ((c : Thread nD τ).loc main_arg1) : S1024x4096.Idx → EReal) transposes_S1024x4096_S4096x1024_1_0 := by
  dsimp only [E1, U1, U0, hostOps0]; after_results <;> rfl
theorem E1_v1 (c : Dev nD) : (E1 m c main_v1 : S1024x4096.Idx → EReal)
    = transpose S1024x4096 [1, 0] (m ((c : Thread nD τ).loc main_arg2) : S4096x1024.Idx → EReal) transposes_S4096x1024_S1024x4096_1_0 := by
  dsimp only [E1, U1, U0, hostOps0]; after_results <;> rfl
theorem E1_v2 (c : Dev nD) : (E1 m c main_v2 : S1x4096.Idx → EReal)
    = shapeCast S1x4096 (m ((c : Thread nD τ).loc main_arg3) : S4096.Idx → EReal) shapeCasts_S4096_S1x4096 := by
  dsimp only [E1, U1, U0, hostOps0]; after_results <;> rfl

/-- The second call finds the projection as the first left it, the second weight matrix transposed, the bias row, -/
theorem E3_v3 (c : Dev nD) : E3 m c main_v3 = X2 m c main_v3 :=
  StableHlo.after_of_writes_sub hostOps1 _ hostOps1_writes (by decide)
theorem E3_v1 (c : Dev nD) : E3 m c main_v1 = E1 m c main_v1 :=
  (StableHlo.after_of_writes_sub hostOps1 _ hostOps1_writes (by decide)).trans (U2_of_ne m c main_v1 (by decide))
theorem E3_v2 (c : Dev nD) : E3 m c main_v2 = E1 m c main_v2 :=
  (StableHlo.after_of_writes_sub hostOps1 _ hostOps1_writes (by decide)).trans (U2_of_ne m c main_v2 (by decide))
/-- and the scale of the projection, as a 1 × 1 array. -/
theorem E3_v9 (c : Dev nD) : (E3 m c main_v9 : S1x1.Idx → EReal)
    = shapeCast S1x1 (Cert.Quant.scaleOf (X2 m c main_v3 : S8192x1024.Idx → EReal)) shapeCasts_S_S1x1 := by
  dsimp only [E3, U3, hostOps1]; after_results <;> rfl

end Cert.KernelIdeal.Hand

end
-- ==== Proof.PayIdeal.lean ====
/-
  The arithmetic of the two kernel bodies, read at one index over the extended reals.

  Over the extended reals a narrowing to bf16 is the identity and a matrix product into a zero accumulator is the plain
  sum Σ_k l[p, k] · r[k, q]. So
    the first body's reset value is 0 everywhere;
    its step adds one block of the product to the accumulator:  a[p, q] + Σ_k x[p, k] · b[k, q];
    the second body quantises its left operand entry by entry at the scale s[0, 0], multiplies and adds the bias row:
      Σ_k q_s(y[p, k]) · w[k, q] + bias[0, q],   q_s(v) = min(3, max(-4, roundeven(v / s))) · s.
-/
import proofs.«178191_j23596550324368_1_alg».proof.Proof.Gen.KernelIdeal.Skeleton
import proofs.«178191_j23596550324368_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.Quant.Pay

open Idealize.ShloMosaic Idealize.ShloMosaic.ValueIdx Cert.KernelIdeal Cert.KernelIdeal.Gen
open scoped BigOperators

/-! ## The first body -/

/-- The reset value: zero everywhere. -/
theorem pay1_apply (j : S512x1024.Idx) : (k0_pay1 (F := Ideal)) j = 0 := by
  unfold k0_pay1
  rw [shapeCast_self]
  exact Ideal.ofBits_zero_f32

/-- The left operand's index of the product: its row is the output's row. -/
theorem lhs_k0_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- Its column is the contraction index. -/
theorem lhs_k0_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand's index: its row is the contraction index. -/
theorem rhs_k0_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- Its column is the output's column. -/
theorem rhs_k0_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into a zero accumulator at (p, q): Σ_k l[p, k] · r[k, q]. -/
theorem mm_k0_apply (l : FVec Ideal S512x1024 .bf16) (r : FVec Ideal S1024x1024 .bf16) (p : Fin 512) (q : Fin 1024) :
    FloatOps.matmul dot_S512x1024_S1024x1024_S512x1024_1_0_0_1_n_n none l r (constant (F := Ideal) S512x1024 .f32 0x00000000#32) (ix2 p q)
      = ∑ k : Fin 1024, l (ix2 p k) * r (ix2 k q) := by
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs_k0_0 _ _
    | ⟨1, _⟩ => exact (lhs_k0_1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs_k0_0 _ _).trans hk
    | ⟨1, _⟩ => exact rhs_k0_1 _ _)
  rw [el, er]

/-- One step: the accumulator plus one block of the product. -/
theorem pay2_apply (x : Vec Ideal S512x1024 .f32) (b : Vec Ideal S1024x1024 .f32) (a : Vec Ideal S512x1024 .f32) (p : Fin 512) (q : Fin 1024) :
    k0_pay2 (F := Ideal) x b a (ix2 p q) = a (ix2 p q) + ∑ k : Fin 1024, x (ix2 p k) * b (ix2 k q) := by
  unfold k0_pay2
  rw [shapeCast_self, shapeCast_self]
  exact congrArg (a (ix2 p q) + ·) (mm_k0_apply _ _ p q)

/-! ## The second body -/

/-- The left operand's index of the product: its row is the output's row. -/
theorem lhs_k1_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- Its column is the contraction index. -/
theorem lhs_k1_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right operand's index: its row is the contraction index. -/
theorem rhs_k1_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- Its column is the output's column. -/
theorem rhs_k1_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product into a zero accumulator at (p, q): Σ_k l[p, k] · r[k, q]. -/
theorem mm_k1_apply (l : FVec Ideal S1024x1024 .bf16) (r : FVec Ideal S1024x1024 .bf16) (p : Fin 1024) (q : Fin 1024) :
    FloatOps.matmul dot_S1024x1024_S1024x1024_S1024x1024_1_0_0_1_n_n none l r (constant (F := Ideal) S1024x1024 .f32 0x00000000#32) (ix2 p q)
      = ∑ k : Fin 1024, l (ix2 p k) * r (ix2 k q) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_k1_0 _ _
    | ⟨1, _⟩ => exact (lhs_k1_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_k1_0 _ _).trans hk
    | ⟨1, _⟩ => exact rhs_k1_1 _ _)
  rw [el, er]

/-- The scale the body extracts is the scale array's one entry. -/
theorem scale_at (s : Vec Ideal S1x1 .f32) :
    extractAt ![0, 0] s inpos_S1x1_p0_0 = s (ix2 (0 : Fin 1) (0 : Fin 1)) :=
  congrArg s (funext fun a => match a with | ⟨0, _⟩ => rfl | ⟨1, _⟩ => rfl)

/-- The quantised left operand times the right one, plus the bias row. -/
theorem k1pay_apply (s : Vec Ideal S1x1 .f32) (y : Vec Ideal S1024x1024 .f32) (w : Vec Ideal S1024x1024 .f32) (bias : Vec Ideal S1x1024 .f32) (p q : Fin 1024) :
    k1_pay1 (F := Ideal) s y w bias (ix2 p q)
      = (∑ k : Fin 1024, Cert.Quant.qf (s (ix2 (0 : Fin 1) (0 : Fin 1))) (y (ix2 p k)) * w (ix2 k q)) + bias (ix2 (0 : Fin 1) q) := by
  unfold k1_pay1
  rw [shapeCast_self, shapeCast_self, shapeCast_self, scale_at]
  refine (congrArg₂ (· + ·) (mm_k1_apply _ _ p q) (broadcastTo_1b_ab_apply bias broadcasts_S1x1024_S1024x1024 p q)).trans ?_
  refine congrArg (· + bias (ix2 (0 : Fin 1) q)) (Finset.sum_congr rfl fun k _ => ?_)
  rfl

end Cert.Quant.Pay

end
-- ==== Proof.KI.Val0.lean ====
/-
  The first pallas_call's value: what its output array holds after the run.

  The grid is 16 × 4: point t has row block t / 4 and contraction block t % 4. At every point the body adds the
  product of its two input blocks to an accumulator (reset to zero where t % 4 = 0) and copies the accumulator to
  the output block, which is written back where t % 4 = 3. So after point t the accumulator and the output block
  both hold the partial sum over the contraction blocks 0 … t % 4 of row block t / 4, and the array ends holding
  Σ_k x[p, k] · b[k, q] over the whole contracted axis.
-/
import proofs.«178191_j23596550324368_1_alg».proof.Proof.KI.Reg0Dat
import proofs.«178191_j23596550324368_1_alg».proof.Proof.PayIdeal
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]
/-- the offsets of a whole-block access, however the zeros are spelt -/
theorem hz2 : (![0, 0] : Fin 2 → Nat) = fun _ => 0 :=
  funext fun a => match a with | ⟨0, _⟩ => rfl | ⟨1, _⟩ => rfl

/-- A load through the whole rectangle, after a store through it on top of any earlier stores, reads that store's payload. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

theorem sout0_A_eq (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : cond0 i)
    (x0 : Vec F S512x1024 .f32) (x1 : Vec F S1024x1024 .f32) :
    sout0_A c i arg2 harg2 arg3 harg3 arg4 harg4 arg5 harg5 hc0 x0 x1 = k0_pay2 x0 x1 (k0_pay1 (F := F)) := by
  unfold sout0_A
  rw [View.read_writes_eq_canon _ _ _ (scover0_A c i arg2 harg2 arg3 harg3 arg4 harg4 arg5 harg5 hc0 x0 x1)]
  unfold kernelRun0_A
  dsimp only
  sl_unfold_words
  rw [View.canon_cons_unit_zero (S := S512x1024) hz2]
  simp only [View.readAt_eq_ld, harg2.read_unread, harg3.read_unread, harg5.read_unread, View.ld_unit_zero (S := S512x1024) hz2,
    View.ld_unit_zero (S := S1024x1024) hz2, readCov_cons_whole (S := S512x1024) _ hz2]

theorem out0_A_eq (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : cond0 i)
    (x0 : Vec F S512x1024 .f32) (x1 : Vec F S1024x1024 .f32) :
    out0_A c i arg2 harg2 arg3 harg3 arg4 harg4 arg5 harg5 hc0 x0 x1 = k0_pay2 x0 x1 (k0_pay1 (F := F)) := by
  unfold out0_A
  rw [View.read_writes_eq_canon _ _ _ (cover0_A c i arg2 harg2 arg3 harg3 arg4 harg4 arg5 harg5 hc0 x0 x1)]
  unfold kernelRun0_A
  dsimp only
  sl_unfold_words
  rw [View.canon_cons_unit_zero (S := S512x1024) hz2]
  simp only [View.readAt_eq_ld, harg2.read_unread, harg3.read_unread, harg5.read_unread, View.ld_unit_zero (S := S512x1024) hz2,
    View.ld_unit_zero (S := S1024x1024) hz2, readCov_cons_whole (S := S512x1024) _ hz2]

theorem sout0_B_eq (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : ¬cond0 i)
    (x0 : Vec F S512x1024 .f32) (x1 : Vec F S1024x1024 .f32) (xs0 : Vec F S512x1024 .f32) :
    sout0_B c i arg2 harg2 arg3 harg3 arg4 harg4 arg5 harg5 hc0 x0 x1 xs0 = k0_pay2 x0 x1 xs0 := by
  unfold sout0_B
  rw [View.read_writes_eq_canon _ _ _ (scover0_B c i arg2 harg2 arg3 harg3 arg4 harg4 arg5 harg5 hc0 x0 x1 xs0)]
  unfold kernelRun0_B
  dsimp only
  sl_unfold_words
  rw [View.canon_cons_unit_zero (S := S512x1024) hz2]
  simp only [View.readAt_eq_ld, harg2.read_unread, harg3.read_unread, harg5.read_unread, View.ld_unit_zero (S := S512x1024) hz2,
    View.ld_unit_zero (S := S1024x1024) hz2, readCov_cons_whole (S := S512x1024) _ hz2]

theorem out0_B_eq (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : ¬cond0 i)
    (x0 : Vec F S512x1024 .f32) (x1 : Vec F S1024x1024 .f32) (xs0 : Vec F S512x1024 .f32) :
    out0_B c i arg2 harg2 arg3 harg3 arg4 harg4 arg5 harg5 hc0 x0 x1 xs0 = k0_pay2 x0 x1 xs0 := by
  unfold out0_B
  rw [View.read_writes_eq_canon _ _ _ (cover0_B c i arg2 harg2 arg3 harg3 arg4 harg4 arg5 harg5 hc0 x0 x1 xs0)]
  unfold kernelRun0_B
  dsimp only
  sl_unfold_words
  rw [View.canon_cons_unit_zero (S := S512x1024) hz2]
  simp only [View.readAt_eq_ld, harg2.read_unread, harg3.read_unread, harg5.read_unread, View.ld_unit_zero (S := S512x1024) hz2,
    View.ld_unit_zero (S := S1024x1024) hz2, readCov_cons_whole (S := S512x1024) _ hz2]

section Blocks

/-! ## The blocks and the arrays, at their literal types -/

variable (V : (c : Dev nD) → (b : Ref sig .tc) → Buf (Elt F) ((c : Thread nD τ).loc b))

/-- The left operand's block at a point. -/
abbrev xblk (c : Dev nD) (t : Fin cfg0.N) : Vec F S512x1024 .f32 := iblk0 V c 0 t
/-- The right operand's block at a point. -/
abbrev bblk (c : Dev nD) (t : Fin cfg0.N) : Vec F S1024x1024 .f32 := iblk0 V c 1 t
/-- The left operand's array as the region finds it. -/
abbrev xarr (c : Dev nD) : Vec F S8192x4096 .f32 := V c main_arg0
/-- The right operand's array as the region finds it. -/
abbrev barr (c : Dev nD) : Vec F S4096x1024 .f32 := V c main_v0

/-- The index maps over the grid: at point t the left block is (t / 4, t % 4), the right block (t % 4, 0), the
    output block (t / 4, 0). -/
theorem idx_facts0 : ∀ t : Fin cfg0.N, win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-- The left block at point 4 i + s reads the array at rows 512 i + p, columns 1024 s + k. -/
theorem xblk_apply (c : Dev nD) (t : Fin cfg0.N) (i : Fin 16) (s : Fin 4) (ht : t.val = 4 * i.val + s.val)
    (p : Fin 512) (k : Fin 1024) :
    xblk V c t (ix2 p k) = xarr V c (ix2 ⟨512 * i.val + p.val, by omega⟩ ⟨1024 * s.val + k.val, by omega⟩) := by
  obtain ⟨e0, e1, -, -, -, -⟩ := idx_facts0 t
  show V c main_arg0 (((cfg0.win 0).blk t).view.emb (ix2 p k)) = V c main_arg0 _
  refine congrArg (V c main_arg0) (funext fun a => Fin.ext ?_)
  match a with
  | ⟨0, _⟩ => show win0_0.index t (0 : Fin 2) * 512 + 1 * p.val = 512 * i.val + p.val; omega
  | ⟨1, _⟩ => show win0_0.index t (1 : Fin 2) * 1024 + 1 * k.val = 1024 * s.val + k.val; omega

/-- The right block at point 4 i + s reads the array at rows 1024 s + k, columns q. -/
theorem bblk_apply (c : Dev nD) (t : Fin cfg0.N) (i : Fin 16) (s : Fin 4) (ht : t.val = 4 * i.val + s.val)
    (k : Fin 1024) (q : Fin 1024) :
    bblk V c t (ix2 k q) = barr V c (ix2 ⟨1024 * s.val + k.val, by omega⟩ q) := by
  obtain ⟨-, -, e2, e3, -, -⟩ := idx_facts0 t
  show V c main_v0 (((cfg0.win 1).blk t).view.emb (ix2 k q)) = V c main_v0 _
  refine congrArg (V c main_v0) (funext fun a => Fin.ext ?_)
  match a with
  | ⟨0, _⟩ => show win0_1.index t (0 : Fin 2) * 1024 + 1 * k.val = 1024 * s.val + k.val; omega
  | ⟨1, _⟩ => show win0_1.index t (1 : Fin 2) * 1024 + 1 * q.val = q.val; omega

end Blocks

section AtIdeal

variable (V : (c : Dev nD) → (b : Ref sig .tc) → Buf (Elt Ideal) ((c : Thread nD τ).loc b))

/-! ## The partial sums -/

/-- One point's addend at (p, q): row block i of x against contraction block s, Σ_k x[512 i + p, 1024 s + k] · b[1024 s + k, q]. -/
def addend (c : Dev nD) (i : Fin 16) (s : Fin 4) (p : Fin 512) (q : Fin 1024) : EReal :=
  ∑ k : Fin 1024, xarr V c (ix2 ⟨512 * i.val + p.val, by omega⟩ ⟨1024 * s.val + k.val, by omega⟩)
    * barr V c (ix2 ⟨1024 * s.val + k.val, by omega⟩ q)

/-- The product of the two blocks at point 4 i + s is that addend. -/
theorem block_prod (c : Dev nD) (t : Fin cfg0.N) (i : Fin 16) (s : Fin 4) (ht : t.val = 4 * i.val + s.val)
    (p : Fin 512) (q : Fin 1024) :
    ∑ k : Fin 1024, xblk V c t (ix2 p k) * bblk V c t (ix2 k q) = addend V c i s p q := by
  unfold addend
  refine Finset.sum_congr rfl fun k _ => ?_
  rw [xblk_apply V c t i s ht p k, bblk_apply V c t i s ht k q]

/-- Where the accumulator is reset (contraction block 0) both buffers are left at the point's addend. -/
theorem outs_reset (c : Dev nD) (t : Fin cfg0.N) (h0 : t.val % 4 = 0) (i : Fin 16) (ht : t.val = 4 * i.val + (0 : Fin 4).val)
    (p : Fin 512) (q : Fin 1024) :
    (outsAt0 V c t.val t.isLt).1 (ix2 p q) = addend V c i 0 p q
      ∧ (outsAt0 V c t.val t.isLt).2 (ix2 p q) = addend V c i 0 p q := by
  rw [outsAt0_A V c t h0]
  dsimp only
  constructor
  · refine (congrFun (out0_A_eq (F := Ideal) c (grid0.coords t) (ms0_0 t) (hs0_0 t) (ms0_1 t) (hs0_1 t) (ms0_2 t) (hs0_2 t) scM0 (Memref.isWhole_whole _) ((hcond0 t).mpr h0) (xblk V c t) (bblk V c t)) (ix2 p q)).trans ?_
    refine (Cert.Quant.Pay.pay2_apply (xblk V c t) (bblk V c t) (k0_pay1 (F := Ideal)) p q).trans ?_
    rw [Cert.Quant.Pay.pay1_apply, zero_add]
    exact block_prod V c t i 0 ht p q
  · refine (congrFun (sout0_A_eq (F := Ideal) c (grid0.coords t) (ms0_0 t) (hs0_0 t) (ms0_1 t) (hs0_1 t) (ms0_2 t) (hs0_2 t) scM0 (Memref.isWhole_whole _) ((hcond0 t).mpr h0) (xblk V c t) (bblk V c t)) (ix2 p q)).trans ?_
    refine (Cert.Quant.Pay.pay2_apply (xblk V c t) (bblk V c t) (k0_pay1 (F := Ideal)) p q).trans ?_
    rw [Cert.Quant.Pay.pay1_apply, zero_add]
    exact block_prod V c t i 0 ht p q

/-- At any other point both buffers are left at what the accumulator held plus the point's addend. -/
theorem outs_step (c : Dev nD) (n : ℕ) (hn : n + 1 < cfg0.N) (h0 : ¬(n + 1) % 4 = 0) (i : Fin 16) (s : Fin 4)
    (ht : n + 1 = 4 * i.val + s.val) (p : Fin 512) (q : Fin 1024) :
    (outsAt0 V c (n + 1) hn).1 (ix2 p q) = (outsAt0 V c n (Nat.lt_of_succ_lt hn)).2 (ix2 p q) + addend V c i s p q
      ∧ (outsAt0 V c (n + 1) hn).2 (ix2 p q) = (outsAt0 V c n (Nat.lt_of_succ_lt hn)).2 (ix2 p q) + addend V c i s p q := by
  have e := outsAt0_B V c ⟨n + 1, hn⟩ h0
  rw [show outsAt0 V c (n + 1) hn = _ from e]
  dsimp only
  constructor
  · refine (congrFun (out0_B_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (xblk V c ⟨n + 1, hn⟩) (bblk V c ⟨n + 1, hn⟩) (outsAt0 V c n (Nat.lt_of_succ_lt hn)).2) (ix2 p q)).trans ?_
    refine (Cert.Quant.Pay.pay2_apply (xblk V c ⟨n + 1, hn⟩) (bblk V c ⟨n + 1, hn⟩) (outsAt0 V c n (Nat.lt_of_succ_lt hn)).2 p q).trans ?_
    exact congrArg ((outsAt0 V c n (Nat.lt_of_succ_lt hn)).2 (ix2 p q) + ·) (block_prod V c ⟨n + 1, hn⟩ i s ht p q)
  · refine (congrFun (sout0_B_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0 ⟨n + 1, hn⟩).mp h)) (xblk V c ⟨n + 1, hn⟩) (bblk V c ⟨n + 1, hn⟩) (outsAt0 V c n (Nat.lt_of_succ_lt hn)).2) (ix2 p q)).trans ?_
    refine (Cert.Quant.Pay.pay2_apply (xblk V c ⟨n + 1, hn⟩) (bblk V c ⟨n + 1, hn⟩) (outsAt0 V c n (Nat.lt_of_succ_lt hn)).2 p q).trans ?_
    exact congrArg ((outsAt0 V c n (Nat.lt_of_succ_lt hn)).2 (ix2 p q) + ·) (block_prod V c ⟨n + 1, hn⟩ i s ht p q)

/-- After point 4 i + j the output block and the accumulator both hold the sum of the addends of the contraction
    blocks 0 … j of row block i. -/
theorem outsAt0_apply (c : Dev nD) (i : Fin 16) : ∀ (j : ℕ) (hj : j < 4) (h : 4 * i.val + j < cfg0.N) (p : Fin 512) (q : Fin 1024),
    (outsAt0 V c (4 * i.val + j) h).1 (ix2 p q) = ∑ s : Fin (j + 1), addend V c i ⟨s.val, by omega⟩ p q
      ∧ (outsAt0 V c (4 * i.val + j) h).2 (ix2 p q) = ∑ s : Fin (j + 1), addend V c i ⟨s.val, by omega⟩ p q
  | 0, hj, h, p, q => by
    rw [Fin.sum_univ_one]
    exact outs_reset V c ⟨4 * i.val + 0, h⟩ (by show (4 * i.val + 0) % 4 = 0; omega) i rfl p q
  | j + 1, hj, h, p, q => by
    obtain ⟨-, ih⟩ := outsAt0_apply c i j (by omega) (Nat.lt_of_succ_lt h) p q
    obtain ⟨s1, s2⟩ := outs_step V c (4 * i.val + j) h (by omega) i ⟨j + 1, hj⟩ rfl p q
    rw [Fin.sum_univ_castSucc]
    exact ⟨s1.trans (congrArg (· + addend V c i ⟨j + 1, hj⟩ p q) ih), s2.trans (congrArg (· + addend V c i ⟨j + 1, hj⟩ p q) ih)⟩

end AtIdeal

/-! ## From the blocks to the array -/

/-- The whole contraction: Σ_k x[r, k] · bt[k, q]. -/
def G0 (x : S8192x4096.Idx → EReal) (bt : S4096x1024.Idx → EReal) : S8192x1024.Idx → EReal :=
  fun j => ∑ k : Fin 4096, x (ix2 ⟨(j 0).val, (j 0).isLt⟩ k) * bt (ix2 k ⟨(j 1).val, (j 1).isLt⟩)

/-- A sum over the contracted axis is the sum over its four blocks of the sums inside each block. -/
theorem sum_blocks (g : Fin 4096 → EReal) :
    ∑ k : Fin 4096, g k = ∑ s : Fin 4, ∑ k : Fin 1024, g ⟨1024 * s.val + k.val, by omega⟩ := by
  rw [← Equiv.sum_comp (finProdFinEquiv (m := 4) (n := 1024)) g, Fintype.sum_prod_type]
  refine Finset.sum_congr rfl fun s _ => Finset.sum_congr rfl fun k _ => congrArg g (Fin.ext ?_)
  show k.val + 1024 * s.val = 1024 * s.val + k.val
  omega

section AtIdeal3

variable (V : (c : Dev nD) → (b : Ref sig .tc) → Buf (Elt Ideal) ((c : Thread nD τ).loc b))

/-- An index of the array is in point t's output block iff each coordinate is in the block's range on its axis. -/
theorem mem_blk0 (t : Fin cfg0.N) (j : S8192x1024.Idx) :
    j ∈ ((cfg0.win 2).blk t).view.set ↔ ∀ a : Fin 2, win0_2.index t a * S512x1024.size a ≤ (j a).val
      ∧ (j a).val < win0_2.index t a * S512x1024.size a + S512x1024.size a := by
  show j ∈ ((View.whole main_v3).slice (win0_2.rect t)).set ↔ _
  rw [View.set_slice_whole, Rect.mem_set_unit]
  exact Iff.rfl

/-- A point at the last contraction block writes back its block of the whole contraction: there the output block
    holds the sum of all four addends of its row block. -/
theorem flushed0_eq (c : Dev nD) (t : Fin cfg0.N) (hf : (cfg0.win 2).flush t = true) :
    (dat0 V c).flushed 2 t = ((cfg0.win 2).blk t).view.read (Elt Ideal) (G0 (V c main_arg0) (V c main_v0)) := by
  have h3 : t.val % 4 = 3 := (flush0_2 t).mp hf
  have hN : t.val < 64 := lt_of_lt_of_eq t.isLt (show cfg0.N = 64 from N_0)
  obtain ⟨-, -, -, -, e4, e5⟩ := idx_facts0 t
  show (cfg0.win 2).cut (grid0.coords t) ((dat0 V c).after 2 t) = _
  rw [after0_2]
  refine funext fun (y : S512x1024.Idx) => ?_
  obtain ⟨p, q, rfl⟩ : ∃ (p : Fin 512) (q : Fin 1024), y = ix2 p q := ⟨y 0, y 1, eq_ix2 y⟩
  have hl : (outsAt0 V c t.val t.isLt).1 (ix2 p q) = ∑ s : Fin 4, addend V c ⟨t.val / 4, by omega⟩ s p q := by
    have same : ∀ (u : ℕ) (hu : u < cfg0.N), u = t.val →
        (outsAt0 V c u hu).1 (ix2 p q) = (outsAt0 V c t.val t.isLt).1 (ix2 p q) := fun u hu e => by subst e; rfl
    rw [← same (4 * (t.val / 4) + 3) (lt_of_lt_of_eq (by omega : 4 * (t.val / 4) + 3 < 64) N_0.symm) (by omega)]
    exact (outsAt0_apply V c ⟨t.val / 4, by omega⟩ 3 (by omega) _ p q).1
  have hemb : ((cfg0.win 2).blk t).view.emb (ix2 p q) = ix2 ⟨512 * (t.val / 4) + p.val, by omega⟩ q := by
    funext a; apply Fin.ext
    match a with
    | ⟨0, _⟩ => show win0_2.index t (0 : Fin 2) * 512 + 1 * p.val = 512 * (t.val / 4) + p.val; omega
    | ⟨1, _⟩ => show win0_2.index t (1 : Fin 2) * 1024 + 1 * q.val = q.val; omega
  show (outsAt0 V c t.val t.isLt).1 (ix2 p q) = G0 (V c main_arg0) (V c main_v0) (((cfg0.win 2).blk t).view.emb (ix2 p q))
  refine hl.trans (Eq.trans ?_ (congrArg (G0 (V c main_arg0) (V c main_v0)) hemb).symm)
  show _ = ∑ k : Fin 4096, xarr V c (ix2 ⟨512 * (t.val / 4) + p.val, by omega⟩ k) * barr V c (ix2 k q)
  rw [sum_blocks]
  rfl

/-- The point that writes row r back is the last of its row block's four: 4 (r / 512) + 3. -/
theorem cover0 (j : S8192x1024.Idx) :
    ∃ t : Fin cfg0.N, (cfg0.win 2).flush t = true ∧ j ∈ ((cfg0.win 2).blk t).view.set := by
  have h0 : (j 0).val < 8192 := (j 0).isLt
  have h1 : (j 1).val < 1024 := (j 1).isLt
  have hb : 4 * ((j 0).val / 512) + 3 < cfg0.N := lt_of_lt_of_eq (by omega : 4 * ((j 0).val / 512) + 3 < 64) N_0.symm
  obtain ⟨-, -, -, -, e4, e5⟩ := idx_facts0 ⟨4 * ((j 0).val / 512) + 3, hb⟩
  have e4' : win0_2.index ⟨4 * ((j 0).val / 512) + 3, hb⟩ (0 : Fin 2) = (j 0).val / 512 := e4.trans (by show (4 * ((j 0).val / 512) + 3) / 4 = _; omega)
  refine ⟨⟨4 * ((j 0).val / 512) + 3, hb⟩, (flush0_2 _).mpr (by show (4 * ((j 0).val / 512) + 3) % 4 = 3; omega), ?_⟩
  rw [mem_blk0]
  intro a
  match a with
  | ⟨0, _⟩ =>
    show win0_2.index ⟨4 * ((j 0).val / 512) + 3, hb⟩ (0 : Fin 2) * 512 ≤ (j 0).val
      ∧ (j 0).val < win0_2.index ⟨4 * ((j 0).val / 512) + 3, hb⟩ (0 : Fin 2) * 512 + 512
    rw [e4']; omega
  | ⟨1, _⟩ =>
    show win0_2.index ⟨4 * ((j 0).val / 512) + 3, hb⟩ (1 : Fin 2) * 1024 ≤ (j 1).val
      ∧ (j 1).val < win0_2.index ⟨4 * ((j 0).val / 512) + 3, hb⟩ (1 : Fin 2) * 1024 + 1024
    rw [e5]; omega

/-- The output array ends holding the whole contraction of the two argument arrays. -/
theorem arr0_final (c : Dev nD) :
    (dat0 (F := Ideal) V c).arrAt 2 cfg0.N = G0 (V c main_arg0) (V c main_v0) :=
  (dat0 V c).arrAt_eq_of_cover 2 (G0 (V c main_arg0) (V c main_v0)) (fun t hf => flushed0_eq V c t hf) cover0

end AtIdeal3

end Cert.KernelIdeal.Hand

end
-- ==== Proof.KI.Val1.lean ====
/-
  The second pallas_call's result array after its region, as one function of the four arrays the region reads.

  The grid is 8 × 4; point t works on row block t / 4 and column block t % 4. It reads rows 1024·(t / 4) … of the
  projection, the one scale, columns 1024·(t % 4) … of the weight and of the bias row, and writes block (t / 4, t % 4) of
  the result: at (p, q) inside the block,
      Σ_k q_s(y[1024·(t / 4) + p, k]) · w[k, 1024·(t % 4) + q] + bias[0, 1024·(t % 4) + q].
  So every point writes its block of ONE function of the arrays, the 32 blocks tile the [8192, 4096] result, and the
  array ends holding that function.
-/
import proofs.«178191_j23596550324368_1_alg».proof.Proof.KI.Reg1
import proofs.«178191_j23596550324368_1_alg».proof.Proof.PayIdeal
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-- The zero offsets of a whole-block rectangle. -/
theorem zeroOff1 : (![0, 0] : Fin 2 → Nat) = fun _ => 0 := funext fun a => by fin_cases a <;> rfl

/-- The result array as one function of the projection y, the scale s, the weight w and the bias row:
    at (r, n), Σ_k q_s(y[r, k]) · w[k, n] + bias[0, n]. -/
def G1 (y : S8192x1024.Idx → EReal) (s : S1x1.Idx → EReal) (w : S1024x4096.Idx → EReal) (bias : S1x4096.Idx → EReal) :
    S8192x4096.Idx → EReal :=
  fun j => (∑ r : Fin 1024, Cert.Quant.qf (s (ix2 (0 : Fin 1) (0 : Fin 1))) (y (ix2 ⟨(j 0).val, (j 0).isLt⟩ r)) * w (ix2 r ⟨(j 1).val, (j 1).isLt⟩))
    + bias (ix2 (0 : Fin 1) ⟨(j 1).val, (j 1).isLt⟩)

/-- One point's value at (p, q) of its block, when its four blocks are row block bi of y, the scale, and column block bj
    of w and of the bias row: the function above at (1024·bi + p, 1024·bj + q). -/
theorem point_value (y : S8192x1024.Idx → EReal) (s : S1x1.Idx → EReal) (w : S1024x4096.Idx → EReal) (bias : S1x4096.Idx → EReal)
    (x0 : Vec Ideal S1024x1024 .f32) (x1 : Vec Ideal S1x1 .f32) (x2 : Vec Ideal S1024x1024 .f32) (x3 : Vec Ideal S1x1024 .f32)
    (bi bj : Nat) (hbi : bi < 8) (hbj : bj < 4)
    (h0 : ∀ p k : Fin 1024, x0 (ix2 p k) = y (ix2 (⟨bi * 1024 + p.val, by omega⟩ : Fin 8192) k))
    (h1 : x1 (ix2 (0 : Fin 1) (0 : Fin 1)) = s (ix2 (0 : Fin 1) (0 : Fin 1)))
    (h2 : ∀ k q : Fin 1024, x2 (ix2 k q) = w (ix2 k (⟨bj * 1024 + q.val, by omega⟩ : Fin 4096)))
    (h3 : ∀ q : Fin 1024, x3 (ix2 (0 : Fin 1) q) = bias (ix2 (0 : Fin 1) (⟨bj * 1024 + q.val, by omega⟩ : Fin 4096)))
    (p q : Fin 1024) :
    k1_pay1 (F := Ideal) x1 x0 x2 x3 (ix2 p q)
      = G1 y s w bias (ix2 (⟨bi * 1024 + p.val, by omega⟩ : Fin 8192) (⟨bj * 1024 + q.val, by omega⟩ : Fin 4096)) := by
  refine (Cert.Quant.Pay.k1pay_apply x1 x0 x2 x3 p q).trans ?_
  rw [h1, h3]
  refine congrArg (· + bias (ix2 (0 : Fin 1) (⟨bj * 1024 + q.val, by omega⟩ : Fin 4096))) (Finset.sum_congr rfl fun k _ => ?_)
  rw [h0, h2]

variable (V : (c : Dev nD) → (b : Ref sig .tc) → Buf (Elt Ideal) ((c : Thread nD τ).loc b))

/-- The index maps over the grid: point t is at row block t / 4 and column block t % 4. -/
theorem idx_facts1 : ∀ t : Fin cfg1.N,
    win1_0.index t (0 : Fin 2) = t.val / 4 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val % 4
    ∧ win1_3.index t (0 : Fin 2) = 0 ∧ win1_3.index t (1 : Fin 2) = t.val % 4
    ∧ win1_4.index t (0 : Fin 2) = t.val / 4 ∧ win1_4.index t (1 : Fin 2) = t.val % 4 :=
  (by decide +kernel : ∀ t : Fin grid1.N, _)

/-- What point t writes back is block t of the function above of the arrays as the region finds them. -/
theorem flushed1_eq (c : Dev nD) (t : Fin cfg1.N) :
    (dat1 (F := Ideal) V c).flushed 4 t
      = ((cfg1.win 4).blk t).view.read (Elt Ideal) (G1 (V c main_v3) (V c main_v9) (V c main_v1) (V c main_v2)) := by
  show (cfg1.win 4).cut (grid1.coords t) ((dat1 V c).after 4 t) = _
  rw [after1_4]
  unfold out1
  rw [View.canon_unit_zero zeroOff1]
  simp only [View.ld_unit_zero (S := S1024x1024) zeroOff1, View.ld_unit_zero (S := S1x1) zeroOff1, View.ld_unit_zero (S := S1x1024) zeroOff1]
  obtain ⟨e00, e01, e10, e11, e20, e21, e30, e31, e40, e41⟩ := idx_facts1 t
  have ht : t.val < 32 := lt_of_lt_of_eq t.isLt N_1
  refine funext fun (y : S1024x1024.Idx) => ?_
  show k1_pay1 (iblk1 V c 1 t) (iblk1 V c 0 t) (iblk1 V c 2 t) (iblk1 V c 3 t) y
    = G1 (V c main_v3) (V c main_v9) (V c main_v1) (V c main_v2) (((cfg1.win 4).blk t).view.emb y)
  obtain ⟨p, q, rfl⟩ : ∃ (p q : Fin 1024), y = ix2 p q := ⟨y 0, y 1, eq_ix2 y⟩
  have hout : ((cfg1.win 4).blk t).view.emb (ix2 p q)
      = ix2 (⟨t.val / 4 * 1024 + p.val, by omega⟩ : Fin 8192) (⟨t.val % 4 * 1024 + q.val, by omega⟩ : Fin 4096) := by
    funext a; apply Fin.ext
    match a with
    | ⟨0, _⟩ => show win1_4.index t (0 : Fin 2) * 1024 + 1 * p.val = t.val / 4 * 1024 + p.val; omega
    | ⟨1, _⟩ => show win1_4.index t (1 : Fin 2) * 1024 + 1 * q.val = t.val % 4 * 1024 + q.val; omega
  rw [hout]
  refine point_value (V c main_v3) (V c main_v9) (V c main_v1) (V c main_v2) _ _ _ _ (t.val / 4) (t.val % 4) (by omega) (by omega)
    (fun p k => ?_) ?_ (fun k q => ?_) (fun q => ?_) p q
  · show V c main_v3 (((cfg1.win 0).blk t).view.emb (ix2 p k)) = V c main_v3 _
    refine congrArg (V c main_v3) (funext fun a => Fin.ext ?_)
    match a with
    | ⟨0, _⟩ => show win1_0.index t (0 : Fin 2) * 1024 + 1 * p.val = t.val / 4 * 1024 + p.val; omega
    | ⟨1, _⟩ => show win1_0.index t (1 : Fin 2) * 1024 + 1 * k.val = k.val; omega
  · show V c main_v9 (((cfg1.win 1).blk t).view.emb (ix2 (0 : Fin 1) (0 : Fin 1))) = V c main_v9 _
    refine congrArg (V c main_v9) (funext fun a => Fin.ext ?_)
    match a with
    | ⟨0, _⟩ => show win1_1.index t (0 : Fin 2) * 1 + 1 * 0 = 0; omega
    | ⟨1, _⟩ => show win1_1.index t (1 : Fin 2) * 1 + 1 * 0 = 0; omega
  · show V c main_v1 (((cfg1.win 2).blk t).view.emb (ix2 k q)) = V c main_v1 _
    refine congrArg (V c main_v1) (funext fun a => Fin.ext ?_)
    match a with
    | ⟨0, _⟩ => show win1_2.index t (0 : Fin 2) * 1024 + 1 * k.val = k.val; omega
    | ⟨1, _⟩ => show win1_2.index t (1 : Fin 2) * 1024 + 1 * q.val = t.val % 4 * 1024 + q.val; omega
  · show V c main_v2 (((cfg1.win 3).blk t).view.emb (ix2 (0 : Fin 1) q)) = V c main_v2 _
    refine congrArg (V c main_v2) (funext fun a => Fin.ext ?_)
    match a with
    | ⟨0, _⟩ => show win1_3.index t (0 : Fin 2) * 1 + 1 * 0 = 0; omega
    | ⟨1, _⟩ => show win1_3.index t (1 : Fin 2) * 1024 + 1 * q.val = t.val % 4 * 1024 + q.val; omega

/-- An index of the result is in point t's block iff each coordinate is in the block's range on its axis. -/
theorem mem_blk1 (t : Fin cfg1.N) (i : S8192x4096.Idx) :
    i ∈ ((cfg1.win 4).blk t).view.set ↔ ∀ a : Fin 2, win1_4.index t a * S1024x1024.size a ≤ (i a).val ∧ (i a).val < win1_4.index t a * S1024x1024.size a + S1024x1024.size a := by
  show i ∈ ((View.whole main_v10).slice (win1_4.rect t)).set ↔ _
  rw [View.set_slice_whole, Rect.mem_set_unit]
  exact Iff.rfl

/-- The 32 blocks tile the result: (r, n) is in the block of point 4 · (r / 1024) + n / 1024. -/
theorem cover1_4 (i : S8192x4096.Idx) :
    ∃ t : Fin cfg1.N, (cfg1.win 4).flush t = true ∧ i ∈ ((cfg1.win 4).blk t).view.set := by
  have hi0 : (i 0).val < 8192 := (i 0).isLt
  have hi1 : (i 1).val < 4096 := (i 1).isLt
  have hN : cfg1.N = 32 := N_1
  let t : Fin cfg1.N := ⟨4 * ((i 0).val / 1024) + (i 1).val / 1024, by rw [hN]; omega⟩
  have htv : t.val = 4 * ((i 0).val / 1024) + (i 1).val / 1024 := rfl
  obtain ⟨-, -, -, -, -, -, -, -, e40, e41⟩ := idx_facts1 t
  refine ⟨t, flush1_4 t, ?_⟩
  rw [mem_blk1]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 1024 ≤ (i 1).val ∧ (i 1).val < win1_4.index t (1 : Fin 2) * 1024 + 1024; omega

/-- The result array after the region: Σ_k q_s(y[r, k]) · w[k, n] + bias[0, n] at every (r, n). -/
theorem arr1_final (c : Dev nD) :
    ((dat1 (F := Ideal) V c).arrAt 4 cfg1.N : S8192x4096.Idx → EReal)
      = fun j => (∑ r : Fin 1024, Cert.Quant.qf ((V c main_v9 : S1x1.Idx → EReal) (ix2 (0 : Fin 1) (0 : Fin 1)))
                    ((V c main_v3 : S8192x1024.Idx → EReal) (ix2 ⟨(j 0).val, (j 0).isLt⟩ r)) * (V c main_v1 : S1024x4096.Idx → EReal) (ix2 r ⟨(j 1).val, (j 1).isLt⟩))
                 + (V c main_v2 : S1x4096.Idx → EReal) (ix2 (0 : Fin 1) ⟨(j 1).val, (j 1).isLt⟩) :=
  (dat1 (F := Ideal) V c).arrAt_eq_of_cover 4 (G1 (V c main_v3) (V c main_v9) (V c main_v1) (V c main_v2))
    (fun t _ => flushed1_eq V c t) cover1_4

end Cert.KernelIdeal.Hand

end
-- ==== Proof.KI.Value.lean ====
/-
  The idealized kernel's result, at the extended reals, is the specification's OUT of the four argument arrays:
  the first pallas_call leaves the projection Y = x · bwᵀ (its four accumulated blocks are the whole sum), the host
  stretch after it computes the tensor-wide scale of Y, and the second pallas_call leaves, at (p, n),
  Σ_r q(Y[p, r]) · aw[n, r] + ab[n].
-/
import proofs.«178191_j23596550324368_1_alg».proof.Proof.KI.ValHost
import proofs.«178191_j23596550324368_1_alg».proof.Proof.KI.Val0
import proofs.«178191_j23596550324368_1_alg».proof.Proof.KI.Val1
import proofs.«178191_j23596550324368_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The first pallas_call leaves the projection. -/
theorem X2_v3 (c : Dev nD) : (X2 m c main_v3 : S8192x1024.Idx → EReal)
    = Cert.Quant.Y (m ((c : Thread nD τ).loc main_arg0)) (m ((c : Thread nD τ).loc main_arg1)) := by
  refine ((U2_arr m c 2).trans (arr0_final (E1 m) c)).trans ?_
  funext j
  unfold Cert.Quant.Y Cert.Quant.yAt
  refine Finset.sum_congr rfl fun k _ => ?_
  rw [E1_arg0, E1_v0]
  refine congrArg _ ?_
  exact transpose_apply [1, 0] _ transposes_S1024x4096_S4096x1024_1_0 _ (ix2 ⟨(j 1).val, (j 1).isLt⟩ k) (fun b => match b with
    | ⟨0, _⟩ => rfl
    | ⟨1, _⟩ => rfl)

/-- The program's result buffer ends at the specification's OUT of the launch contents of the four arguments. -/
theorem U4_out (c : Dev nD) : (U4 m c (Proc.devRef .tc main_v10) : S8192x4096.Idx → EReal)
    = Cert.Quant.OUT (m ((c : Thread nD τ).loc main_arg0)) (m ((c : Thread nD τ).loc main_arg1))
        (m ((c : Thread nD τ).loc main_arg2)) (m ((c : Thread nD τ).loc main_arg3)) := by
  refine ((U4_arr m c 4).trans (arr1_final (E3 m) c)).trans ?_
  funext j
  unfold Cert.Quant.OUT Cert.Quant.outAt
  rw [E3_v9, E3_v3, E3_v1, E3_v2, E1_v1, E1_v2, X2_v3]
  refine congr (congrArg _ (Finset.sum_congr rfl fun r _ => ?_)) ?_
  · refine congr (congrArg _ ?_) ?_
    · refine congr (congrArg _ ?_) rfl
      exact shapeCast_apply _ shapeCasts_S_S1x1 _ ix0 rfl
    · exact transpose_apply [1, 0] _ transposes_S4096x1024_S1024x4096_1_0 _ (ix2 ⟨(j 1).val, (j 1).isLt⟩ r) (fun b => match b with
        | ⟨0, _⟩ => rfl
        | ⟨1, _⟩ => rfl)
  · exact shapeCast_a_1a_apply _ shapeCasts_S4096_S1x4096 (0 : Fin 1) ⟨(j 1).val, (j 1).isLt⟩

end Cert.KernelIdeal.Hand

end
-- ==== Proof.RefValue.lean ====
/-
  The reference program computes the specification.

  Read one operation at a time, the reference forms the projection y = x · bwᵀ, the tensor-wide scale
  s = max(max|y| · 1, 1e-8) / 3, the quantised value q(v) = min(3, max(-4, roundeven(v / s))) · s of each entry
  of y, and the result q(y) · awᵀ + ab. Each stage is matched with the specification's term for it:
  the projection with `Y`, the scale with `scaleOf Y`, the quantised entry with `qf`, the result with `OUT`.
-/
import proofs.«178191_j23596550324368_1_alg».proof.Proof.Gen.ReferenceIdeal.Read
import proofs.«178191_j23596550324368_1_alg».proof.Proof.Spec

noncomputable section

namespace Cert.Quant.RefValue

open Idealize.ShloMosaic Idealize.ShloMosaic.ValueIdx Cert.ReferenceIdeal Cert.ReferenceIdeal.Read
open scoped BigOperators

/-- the reference's projection stage is the specification's Y -/
theorem ref_y (x0 : Vec Ideal Cert.Quant.SX .f32) (x1 : Vec Ideal Cert.Quant.SB .f32) :
    val_main_v1 (F := Ideal) x0 x1 = Cert.Quant.Y x0 x1 := by
  funext i
  rw [val_main_v1_apply]
  unfold Cert.Quant.Y Cert.Quant.yAt
  refine Finset.sum_congr rfl fun k _ => ?_
  rw [val_main_v0_apply]
  -- the left operand is read at row (i 0), column k; the transposed right operand at row (i 1), column k
  have el : lidx_main_v1 i k = ix2 ⟨(i 0).val, (i 0).isLt⟩ k :=
    funext fun a => by match a with | ⟨0, _⟩ => rfl | ⟨1, _⟩ => rfl
  have er : idx_main_v0 (ridx_main_v1 i k) = ix2 ⟨(i 1).val, (i 1).isLt⟩ k :=
    funext fun a => by match a with | ⟨0, _⟩ => rfl | ⟨1, _⟩ => rfl
  rw [el, er]
  rfl

/-- the reference's scale stage is the specification's scaleOf of Y -/
theorem ref_scale (x0 : Vec Ideal Cert.Quant.SX .f32) (x1 : Vec Ideal Cert.Quant.SB .f32) :
    val_main_v6 (F := Ideal) x0 x1 = Cert.Quant.scaleOf (Cert.Quant.Y x0 x1) := by
  unfold val_main_v6 val_main_v5 val_main_v4 val_main_v3 val_main_v2 val_main_cst val_main_cst_0 val_main_cst_1
    val_main_cst_2
  rw [ref_y]
  -- the same operations applied to the same array; the side conditions are proofs of the same propositions
  generalize Cert.Quant.Y x0 x1 = y
  unfold Cert.Quant.scaleOf
  rfl

/-- an entry of the reference's quantised stage is the specification's q of the same entry of Y, at the tensor-wide scale -/
theorem ref_q (x0 : Vec Ideal Cert.Quant.SX .f32) (x1 : Vec Ideal Cert.Quant.SB .f32) (j : Cert.Quant.SY.Idx) :
    val_main_v12 (F := Ideal) x0 x1 j = Cert.Quant.qf (Cert.Quant.scale x0 x1) (Cert.Quant.Y x0 x1 j) := by
  rw [val_main_v12_apply, val_main_v10_apply, val_main_call1_v4_apply, val_main_call1_v3_apply, val_main_c_3_apply,
    val_main_call1_v2_apply, val_main_call1_v1_apply, val_main_call1_v0_apply, val_main_c_apply, val_main_v9_apply,
    val_main_v8_apply, val_main_v7_apply, val_main_v11_apply, ref_y, ref_scale]
  -- the scalar shape has one index, so both broadcasts of the scale read it there
  rw [eq_ix0 (idx_main_v7 j), eq_ix0 (idx_main_v11 j)]
  unfold Cert.Quant.scale
  generalize Cert.Quant.scaleOf (Cert.Quant.Y x0 x1) ix0 = s
  generalize Cert.Quant.Y x0 x1 j = v
  -- over the extended reals the host's division and rounding are the ones q is written with
  unfold Cert.Quant.qf
  rfl

/-- the reference's result is the specification's OUT -/
theorem ref_eq (x0 : Vec Ideal Cert.Quant.SX .f32) (x1 : Vec Ideal Cert.Quant.SB .f32)
    (x2 : Vec Ideal Cert.Quant.SA .f32) (x3 : Vec Ideal Cert.Quant.SBias .f32) :
    val_main_v17 (F := Ideal) x0 x1 x2 x3 = Cert.Quant.OUT x0 x1 x2 x3 := by
  funext i
  rw [val_main_v17_apply, val_main_v14_apply, val_main_v16_apply, val_main_v15_apply]
  unfold Cert.Quant.OUT Cert.Quant.outAt
  -- the bias is read at column (i 1)
  have eb : idx_main_v15 (idx_main_v16 i) = ix1 ⟨(i 1).val, (i 1).isLt⟩ :=
    funext fun a => by match a with | ⟨0, _⟩ => rfl
  rw [eb]
  refine congrArg (· + x3 (ix1 ⟨(i 1).val, (i 1).isLt⟩)) (Finset.sum_congr rfl fun k _ => ?_)
  rw [ref_q, val_main_v13_apply]
  -- the quantised stage is read at row (i 0), column k; the transposed second weight at row (i 1), column k
  have er : idx_main_v13 (ridx_main_v14 i k) = ix2 ⟨(i 1).val, (i 1).isLt⟩ k :=
    funext fun a => by match a with | ⟨0, _⟩ => rfl | ⟨1, _⟩ => rfl
  rw [er]
  rfl

end Cert.Quant.RefValue

end
-- ==== Proof.lean ====
/-
  The certificate. Both programs compute, over the extended reals,
      out[p, n] = Σ_r q(y[p, r]) · aw[n, r] + ab[n],   y = x · bwᵀ,   q(v) = min(3, max(-4, roundeven(v / s))) · s,
  with one scale s = max(max|y| · 1, 1e-8) / 3 for the whole tensor (Proof/Spec.lean). The kernel accumulates y over
  four blocks of the contracted axis, which is the whole sum because addition of extended reals is commutative and
  associative; its second call quantises a block of y and multiplies it by a block of awᵀ, which is the reference's
  quantise-then-matmul read block by block. No law used needs the inputs to be finite.
  The three frames: each kernel program is run as four segments (host operations, a pallas_call, host operations, a
  pallas_call) whose buffers' contents are folded from the launch memory (Proof/KI/Run.lean, Proof/K/Run.lean); the
  reference is a straight line of host operations. The idealisation rewrote nothing, so preserves is trivial.
-/
import proofs.«178191_j23596550324368_1_alg».proof.Defs
import proofs.«178191_j23596550324368_1_alg».proof.Proof.Gen.Kernel
import proofs.«178191_j23596550324368_1_alg».proof.Proof.Gen.KernelIdeal
import proofs.«178191_j23596550324368_1_alg».proof.Proof.Gen.ReferenceIdeal
import proofs.«178191_j23596550324368_1_alg».proof.Proof.Gen.Pre_finite_inputs
import proofs.«178191_j23596550324368_1_alg».proof.Proof.Gen.ReferenceIdeal.Run
import proofs.«178191_j23596550324368_1_alg».proof.Proof.Gen.ReferenceIdeal.Read
import proofs.«178191_j23596550324368_1_alg».proof.Proof.K.Run
import proofs.«178191_j23596550324368_1_alg».proof.Proof.KI.Run
import proofs.«178191_j23596550324368_1_alg».proof.Proof.KI.Value
import proofs.«178191_j23596550324368_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the specification's OUT of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Quant.OUT (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨?_, ?_, ?_, ?_, ?_⟩) (Cert.KernelIdeal.Hand.run_all (F := Ideal) m ρ)
    · exact (h c _ (Cert.KernelIdeal.Hand.mem_uc Cert.KernelIdeal.main_v10 (by decide))).trans (Cert.KernelIdeal.Hand.U4_out m c)
    · exact (h c _ (Cert.KernelIdeal.Hand.mem_uc Cert.KernelIdeal.main_arg0 (by decide))).trans (Cert.KernelIdeal.Hand.U4_main_arg0 m c)
    · exact (h c _ (Cert.KernelIdeal.Hand.mem_uc Cert.KernelIdeal.main_arg1 (by decide))).trans (Cert.KernelIdeal.Hand.U4_main_arg1 m c)
    · exact (h c _ (Cert.KernelIdeal.Hand.mem_uc Cert.KernelIdeal.main_arg2 (by decide))).trans (Cert.KernelIdeal.Hand.U4_main_arg2 m c)
    · exact (h c _ (Cert.KernelIdeal.Hand.mem_uc Cert.KernelIdeal.main_arg3 (by decide))).trans (Cert.KernelIdeal.Hand.U4_main_arg3 m c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v17_eq, Cert.Quant.RefValue.ref_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
